-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.truncf_extf.Statement Cert.KernelIdeal.S1024x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S100000 : Shape := ⟨1, ![100000]⟩
abbrev S1024 : Shape := ⟨1, ![1024]⟩
abbrev S128x64 : Shape := ⟨2, ![128, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg8 : FVec F S10 .f32) (main_v13 : IVec S_ 1) (main_v16 : IVec S64x10 1) : IVec S_ 1 :=
  let main_c_5 : IVec S_ 1 := constantI S_ 1 1#1
  let main_v17 : IVec S_ 1 := (fun x v => Host.reduce IntOp.andi x v reducesTo_S64x10_S_d0_1 h_S_) main_v16 main_c_5
  let main_v18 : IVec S_ 1 := andi main_v13 main_v17
  let main_v19 : FVec F S10 .f32 := Host.absf main_arg8
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S100000x128 .f32) (main_arg1 : IVec S2x1000000 32) (main_arg2 : IVec S100000 32) (main_arg3 : IVec S1024 1) (main_arg4 : IVec S1024 32) (main_arg5 : FVec F S128x64 .f32) (main_arg6 : FVec F S64 .f32) (main_arg7 : FVec F S64x10 .f32) (main_arg8 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg5
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg6
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x10 .f32 := Host.absf main_arg7
  let main_cst_4 : FVec F S_ .f32 := constant S_ .f32 0x7F800000#32
  let main_v15 : FVec F S64x10 .f32 := broadcastInDim S64x10 ![] bcast_S_S64x10 main_cst_4
  let main_v16 : IVec S64x10 1 := cmpf .olt main_v14 main_v15
  fn_part1 (F := F) main_arg8 main_v13 main_v16
-- ==== Kernel.lean ====
abbrev S100000x128 : Shape := ⟨2, ![100000, 128]⟩
abbrev S2x1000000 : Shape := ⟨2, ![2, 1000000]⟩
abbrev S100000 : Shape := ⟨1, ![100000]⟩
abbrev S1024 : Shape := ⟨1, ![1024]⟩
abbrev S128x64 : Shape := ⟨2, ![128, 64]⟩
abbrev S64 : Shape := ⟨1, ![64]⟩
abbrev S64x10 : Shape := ⟨2, ![64, 10]⟩
abbrev S10 : Shape := ⟨1, ![10]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S100000x64 : Shape := ⟨2, ![100000, 64]⟩
abbrev S10000x128 : Shape := ⟨2, ![10000, 128]⟩
abbrev S10000x64 : Shape := ⟨2, ![10000, 64]⟩
abbrev S1000000x64 : Shape := ⟨2, ![1000000, 64]⟩
abbrev S100352x64 : Shape := ⟨2, ![100352, 64]⟩
abbrev S100352 : Shape := ⟨1, ![100352]⟩
abbrev S1024x10 : Shape := ⟨2, ![1024, 10]⟩
abbrev S1024x64 : Shape := ⟨2, ![1024, 64]⟩
abbrev S1024x1 : Shape := ⟨2, ![1024, 1]⟩
abbrev S1x64 : Shape := ⟨2, ![1, 64]⟩
abbrev S1024x1024 : Shape := ⟨2, ![1024, 1024]⟩
abbrev S1x1024 : Shape := ⟨2, ![1, 1024]⟩
abbrev S1x10 : Shape := ⟨2, ![1, 10]⟩

abbrev nBuf : Space → Nat
  | .hbm => 74
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S100000, .i32⟩
  | .hbm, ⟨3, _⟩ => ⟨S1024, .i1⟩
  | .hbm, ⟨4, _⟩ => ⟨S1024, .i32⟩
  | .hbm, ⟨5, _⟩ => ⟨S128x64, .f32⟩
  | .hbm, ⟨6, _⟩ => ⟨S64, .f32⟩
  | .hbm, ⟨7, _⟩ => ⟨S64x10, .f32⟩
  | .hbm, ⟨8, _⟩ => ⟨S10, .f32⟩
  | .hbm, ⟨9, _⟩ => ⟨S1x1000000, .i32⟩
  | .hbm, ⟨10, _⟩ => ⟨S1000000, .i32⟩
  | .hbm, ⟨11, _⟩ => ⟨S1x1000000, .i32⟩
  | .hbm, ⟨12, _⟩ => ⟨S1000000, .i32⟩
  | .hbm, ⟨13, _⟩ => ⟨S_, .f32⟩
  | .hbm, ⟨14, _⟩ => ⟨S1000000, .f32⟩
  | .hbm, ⟨15, _⟩ => ⟨S_, .f32⟩
  | .hbm, ⟨16, _⟩ => ⟨S100000, .f32⟩
  | .hbm, ⟨17, _⟩ => ⟨S1000000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1000000, .i32⟩
  | .hbm, ⟨32, _⟩ => ⟨S1000000, .i1⟩
  | .hbm, ⟨33, _⟩ => ⟨S_, .i32⟩
  | .hbm, ⟨34, _⟩ => ⟨S1000000, .i32⟩
  | .hbm, ⟨35, _⟩ => ⟨S1000000, .i32⟩
  | .hbm, ⟨36, _⟩ => ⟨S1000000, .i32⟩
  | .hbm, ⟨37, _⟩ => ⟨S1000000x1, .i32⟩
  | .hbm, ⟨38, _⟩ => ⟨S1000000, .f32⟩
  | .hbm, ⟨39, _⟩ => ⟨S_, .i32⟩
  | .hbm, ⟨40, _⟩ => ⟨S1000000, .i32⟩
  | .hbm, ⟨41, _⟩ => ⟨S1000000, .i1⟩
  | .hbm, ⟨42, _⟩ => ⟨S_, .i32⟩
  | .hbm, ⟨43, _⟩ => ⟨S1000000, .i32⟩
  | .hbm, ⟨44, _⟩ => ⟨S1000000, .i32⟩
  | .hbm, ⟨45, _⟩ => ⟨S1000000, .i32⟩
  | .hbm, ⟨46, _⟩ => ⟨S1000000x1, .i32⟩
  | .hbm, ⟨47, _⟩ => ⟨S1000000, .f32⟩
  | .hbm, ⟨48, _⟩ => ⟨S1000000, .f32⟩
  | .hbm, ⟨49, _⟩ => ⟨S100000x64, .bf16⟩
  | .hbm, ⟨50, _⟩ => ⟨S_, .i32⟩
  | .hbm, ⟨51, _⟩ => ⟨S1000000, .i32⟩
  | .hbm, ⟨52, _⟩ => ⟨S1000000, .i1⟩
  | .hbm, ⟨53, _⟩ => ⟨S_, .i32⟩
  | .hbm, ⟨54, _⟩ => ⟨S1000000, .i32⟩
  | .hbm, ⟨55, _⟩ => ⟨S1000000, .i32⟩
  | .hbm, ⟨56, _⟩ => ⟨S1000000, .i32⟩
  | .hbm, ⟨57, _⟩ => ⟨S1000000x1, .i32⟩
  | .hbm, ⟨58, _⟩ => ⟨S1000000x64, .bf16⟩
  | .hbm, ⟨59, _⟩ => ⟨S1000000x64, .f32⟩
  | .hbm, ⟨60, _⟩ => ⟨S1000000x1, .f32⟩
  | .hbm, ⟨61, _⟩ => ⟨S1000000x64, .f32⟩
  | .hbm, ⟨62, _⟩ => ⟨S1000000x64, .f32⟩
  | .hbm, ⟨63, _⟩ => ⟨S_, .f32⟩
  | .hbm, ⟨64, _⟩ => ⟨S100000x64, .f32⟩
  | .hbm, ⟨65, _⟩ => ⟨S1000000x1, .i32⟩
  | .hbm, ⟨66, _⟩ => ⟨S100000x64, .f32⟩
  | .hbm, ⟨67, _⟩ => ⟨S_, .i32⟩
  | .hbm, ⟨68, _⟩ => ⟨S_, .f32⟩
  | .hbm, ⟨69, _⟩ => ⟨S100352x64, .f32⟩
  | .hbm, ⟨70, _⟩ => ⟨S_, .i32⟩
  | .hbm, ⟨71, _⟩ => ⟨S_, .i32⟩
  | .hbm, ⟨72, _⟩ => ⟨S100352, .i32⟩
  | .hbm, ⟨73, _⟩ => ⟨S1024x10, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .bf16⟩
  | .local _ .vmem, ⟨4, _⟩ => ⟨S10000x64, .bf16⟩
  | .local _ .vmem, ⟨5, _⟩ => ⟨S1024x64, .f32⟩
  | .local _ .vmem, ⟨6, _⟩ => ⟨S1024x64, .f32⟩
  | .local _ .vmem, ⟨7, _⟩ => ⟨S100352, .i32⟩
  | .local _ .vmem, ⟨8, _⟩ => ⟨S64, .f32⟩
  | .local _ .vmem, ⟨9, _⟩ => ⟨S64x10, .f32⟩
  | .local _ .vmem, ⟨10, _⟩ => ⟨S10, .f32⟩
  | .local _ .vmem, ⟨11, _⟩ => ⟨S1024x10, .f32⟩
  | .local _ .vmem, ⟨12, _⟩ => ⟨S1024x64, .f32⟩
  | .local _ .vmem, ⟨13, _⟩ => ⟨S1024x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_c_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_10 : Ref sig .tc := ⟨.hbm, 67, rfl⟩
abbrev main_call1_v0 : Ref sig .tc := ⟨.hbm, 68, rfl⟩
abbrev main_v44 : Ref sig .tc := ⟨.hbm, 69, rfl⟩
abbrev main_c_11 : Ref sig .tc := ⟨.hbm, 70, rfl⟩
abbrev main_call2_v0 : Ref sig .tc := ⟨.hbm, 71, rfl⟩
abbrev main_v45 : Ref sig .tc := ⟨.hbm, 72, rfl⟩
abbrev main_v46 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_scratch0 : Ref sig .tc := ⟨.vmem, 12, rfl⟩
abbrev cc1_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![98], ![false]⟩

def k1_mult1 (i : grid1.Coords) : BitVec 32 :=
  let arg0 : BitVec 32 := BitVec.ofNat 32 (i 0).val
  let c1024_i32 : BitVec 32 := 1024#32
  let v3 : BitVec 32 := Scalar.muli arg0 c1024_i32
  v3
def k1_off1 (i : grid1.Coords) : Fin 1 → Nat :=
  let arg0 : BitVec 32 := BitVec.ofNat 32 (i 0).val
  let c1024_i32 : BitVec 32 := 1024#32
  let v3 : BitVec 32 := Scalar.muli arg0 c1024_i32
  let v4 : BitVec 32 := v3
  let v5 : Index := Scalar.indexCast v4
  ![v5.toNat]
def k1_cond2 (i : grid1.Coords) : BitVec 1 :=
  let arg0 : BitVec 32 := BitVec.ofNat 32 (i 0).val
  let c97_i32 : BitVec 32 := 97#32
  let v39 : BitVec 1 := Scalar.cmpi .eq arg0 c97_i32
  let v40 : BitVec 32 := Scalar.extui v39
  let c0_i32_13 : BitVec 32 := 0#32
  let v41 : BitVec 1 := Scalar.cmpi .ne v40 c0_i32_13
  v41

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S100352 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S10 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x10 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  pads_S100000x64_S100352x64_03520_000 : S100000x64.Pads (![0, 0] : Fin 2 → Nat) ![352, 0] ![0, 0] S100352x64
  h_S_ : 0 < S_.numel
  pads_S100000_S100352_03520 : S100000.Pads (![0] : Fin 1 → Nat) ![352] ![0] S100352
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  h_S1024 : 0 < S1024.numel
  shapeCasts_S1024_S1024 : S1024.ShapeCasts S1024
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  iota_S1024x1024_d0_w32 : S1024x1024.Iotas .tc 32 [0]
  shapeCasts_S1024_S1x1024 : S1024.ShapeCasts S1x1024
  shapeCasts_S1x1024_S1x1024 : S1x1024.ShapeCasts S1x1024
  broadcasts_S1x1024_S1024x1024 : S1x1024.Broadcasts S1024x1024
  natLt_1_32 : 1 < 32
  reduces_S1024x1024_S1024 : S1024x1024.Reduces [1] S1024
  shapeCasts_S1024_S1024x1 : S1024.ShapeCasts S1024x1
  broadcasts_S1024x1_S1024x64 : S1024x1.Broadcasts S1024x64
  inb_S64x10_S64x10_0_0 : ∀ a, (![0, 0] : Fin 2 → Nat) a + S64x10.size a ≤ S64x10.size a
  h_S64x10 : 0 < S64x10.numel
  inb_S10_S10_0 : ∀ a, (![0] : Fin 1 → Nat) a + S10.size a ≤ S10.size a
  h_S10 : 0 < S10.numel
  shapeCasts_S10_S1x10 : S10.ShapeCasts S1x10
  broadcasts_S1x10_S1024x10 : S1x10.Broadcasts S1024x10
  inb_S1024x10_S1024x10_0_0 : ∀ a, (![0, 0] : Fin 2 → Nat) a + S1024x10.size a ≤ S1024x10.size a
  h_S1024x10 : 0 < S1024x10.numel
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  dot_S10000x128_S128x64_S10000x64_1_0_0_1_n_n_wf : DotDims.WF S10000x128 S128x64 S10000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S1024x1024_S1024x64_S1024x64_1_0_0_1_n_n_wf : DotDims.WF S1024x1024 S1024x64 S1024x64 [1] [0] [0] [1] [] []
  dot_S1024x64_S64x10_S1024x10_1_0_0_1_n_n_wf : DotDims.WF S1024x64 S64x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .bf16 = 32 ∨ (Rect.block (s := S100000x64) S10000x64.size (cc0_transform_2 i) (hinb0_2 i)).WholeWords (EltTy.packing .bf16)
  hrank1 : 0 < grid1.rank
  k1_mult1_dvd : ∀ i : grid1.Coords, 1024 ∣ (k1_mult1 i).toNat
  k1_off1_inb : ∀ i : grid1.Coords, ∀ a, (k1_off1 i) a + S1024.size a ≤ S100352.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S100352x64.size a
  hwx1_0 : ∀ i : grid1.Coords, EltTy.bits .f32 = 32 ∨ (Rect.block (s := S100352x64) S1024x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S100352.size a ≤ S100352.size a
  hwx1_1 : ∀ i : grid1.Coords, EltTy.bits .i32 = 32 ∨ (Rect.block (s := S100352) S100352.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x10.size a ≤ S64x10.size a
  hwx1_3 : ∀ i : grid1.Coords, EltTy.bits .f32 = 32 ∨ (Rect.block (s := S64x10) S64x10.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S10.size a ≤ S10.size a
  hwx1_4 : ∀ i : grid1.Coords, EltTy.bits .f32 = 32 ∨ (Rect.block (s := S10) S10.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x10.size a ≤ S1024x10.size a
  hwx1_5 : ∀ i : grid1.Coords, EltTy.bits .f32 = 32 ∨ (Rect.block (s := S1024x10) S1024x10.size (cc1_transform_5 i) (hinb1_5 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S64x10_S1024x10_1_0_0_1_n_n : DotDims S1024x64 S64x10 S1024x10 where
  lhsContracting := [1]
  rhsContracting := [0]
  lhsNonContracting := [0]
  rhsNonContracting := [1]
  lhsBatch := []
  rhsBatch := []
  wf := dot_S1024x64_S64x10_S1024x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S100352.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x10.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S10.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S1024x10.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1000000 : Shape := ⟨2, ![2, 1000000]⟩
abbrev S100000 : Shape := ⟨1, ![100000]⟩
abbrev S1024 : Shape := ⟨1, ![1024]⟩
abbrev S128x64 : Shape := ⟨2, ![128, 64]⟩
abbrev S64 : Shape := ⟨1, ![64]⟩
abbrev S64x10 : Shape := ⟨2, ![64, 10]⟩
abbrev S10 : Shape := ⟨1, ![10]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S100000x64 : Shape := ⟨2, ![100000, 64]⟩
abbrev S1000000x64 : Shape := ⟨2, ![1000000, 64]⟩
abbrev S1x64 : Shape := ⟨2, ![1, 64]⟩
abbrev S1024x64 : Shape := ⟨2, ![1024, 64]⟩
abbrev S100000x1 : Shape := ⟨2, ![100000, 1]⟩
abbrev S1024x1 : Shape := ⟨2, ![1024, 1]⟩
abbrev S1024x10 : Shape := ⟨2, ![1024, 10]⟩
abbrev S1x10 : Shape := ⟨2, ![1, 10]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S100000, .i32⟩
  | .hbm, ⟨3, _⟩ => ⟨S1024, .i1⟩
  | .hbm, ⟨4, _⟩ => ⟨S1024, .i32⟩
  | .hbm, ⟨5, _⟩ => ⟨S128x64, .f32⟩
  | .hbm, ⟨6, _⟩ => ⟨S64, .f32⟩
  | .hbm, ⟨7, _⟩ => ⟨S64x10, .f32⟩
  | .hbm, ⟨8, _⟩ => ⟨S10, .f32⟩
  | .hbm, ⟨9, _⟩ => ⟨S1x1000000, .i32⟩
  | .hbm, ⟨10, _⟩ => ⟨S1000000, .i32⟩
  | .hbm, ⟨11, _⟩ => ⟨S1x1000000, .i32⟩
  | .hbm, ⟨12, _⟩ => ⟨S1000000, .i32⟩
  | .hbm, ⟨13, _⟩ => ⟨S_, .f32⟩
  | .hbm, ⟨14, _⟩ => ⟨S1000000, .f32⟩
  | .hbm, ⟨15, _⟩ => ⟨S_, .f32⟩
  | .hbm, ⟨16, _⟩ => ⟨S100000, .f32⟩
  | .hbm, ⟨17, _⟩ => ⟨S1000000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1000000, .i32⟩
  | .hbm, ⟨32, _⟩ => ⟨S1000000, .i1⟩
  | .hbm, ⟨33, _⟩ => ⟨S_, .i32⟩
  | .hbm, ⟨34, _⟩ => ⟨S1000000, .i32⟩
  | .hbm, ⟨35, _⟩ => ⟨S1000000, .i32⟩
  | .hbm, ⟨36, _⟩ => ⟨S1000000, .i32⟩
  | .hbm, ⟨37, _⟩ => ⟨S1000000x1, .i32⟩
  | .hbm, ⟨38, _⟩ => ⟨S1000000, .f32⟩
  | .hbm, ⟨39, _⟩ => ⟨S_, .i32⟩
  | .hbm, ⟨40, _⟩ => ⟨S1000000, .i32⟩
  | .hbm, ⟨41, _⟩ => ⟨S1000000, .i1⟩
  | .hbm, ⟨42, _⟩ => ⟨S_, .i32⟩
  | .hbm, ⟨43, _⟩ => ⟨S1000000, .i32⟩
  | .hbm, ⟨44, _⟩ => ⟨S1000000, .i32⟩
  | .hbm, ⟨45, _⟩ => ⟨S1000000, .i32⟩
  | .hbm, ⟨46, _⟩ => ⟨S1000000x1, .i32⟩
  | .hbm, ⟨47, _⟩ => ⟨S1000000, .f32⟩
  | .hbm, ⟨48, _⟩ => ⟨S1000000, .f32⟩
  | .hbm, ⟨49, _⟩ => ⟨S100000x64, .f32⟩
  | .hbm, ⟨50, _⟩ => ⟨S_, .i32⟩
  | .hbm, ⟨51, _⟩ => ⟨S1000000, .i32⟩
  | .hbm, ⟨52, _⟩ => ⟨S1000000, .i1⟩
  | .hbm, ⟨53, _⟩ => ⟨S_, .i32⟩
  | .hbm, ⟨54, _⟩ => ⟨S1000000, .i32⟩
  | .hbm, ⟨55, _⟩ => ⟨S1000000, .i32⟩
  | .hbm, ⟨56, _⟩ => ⟨S1000000, .i32⟩
  | .hbm, ⟨57, _⟩ => ⟨S1000000x1, .i32⟩
  | .hbm, ⟨58, _⟩ => ⟨S1000000x64, .f32⟩
  | .hbm, ⟨59, _⟩ => ⟨S1000000x1, .f32⟩
  | .hbm, ⟨60, _⟩ => ⟨S1000000x64, .f32⟩
  | .hbm, ⟨61, _⟩ => ⟨S1000000x64, .f32⟩
  | .hbm, ⟨62, _⟩ => ⟨S_, .f32⟩
  | .hbm, ⟨63, _⟩ => ⟨S100000x64, .f32⟩
  | .hbm, ⟨64, _⟩ => ⟨S1000000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S_, .f32⟩
  | .hbm, ⟨73, _⟩ => ⟨S1024x64, .f32⟩
  | .hbm, ⟨74, _⟩ => ⟨S100000x1, .i32⟩
  | .hbm, ⟨75, _⟩ => ⟨S1024x64, .f32⟩
  | .hbm, ⟨76, _⟩ => ⟨S_, .f32⟩
  | .hbm, ⟨77, _⟩ => ⟨S100000, .f32⟩
  | .hbm, ⟨78, _⟩ => ⟨S_, .f32⟩
  | .hbm, ⟨79, _⟩ => ⟨S1024, .f32⟩
  | .hbm, ⟨80, _⟩ => ⟨S100000x1, .i32⟩
  | .hbm, ⟨81, _⟩ => ⟨S1024, .f32⟩
  | .hbm, ⟨82, _⟩ => ⟨S_, .f32⟩
  | .hbm, ⟨83, _⟩ => ⟨S1024, .f32⟩
  | .hbm, ⟨84, _⟩ => ⟨S1024, .f32⟩
  | .hbm, ⟨85, _⟩ => ⟨S1024x1, .f32⟩
  | .hbm, ⟨86, _⟩ => ⟨S1024x64, .f32⟩
  | .hbm, ⟨87, _⟩ => ⟨S1024x64, .f32⟩
  | .hbm, ⟨88, _⟩ => ⟨S1024x10, .f32⟩
  | .hbm, ⟨89, _⟩ => ⟨S1x10, .f32⟩
  | .hbm, ⟨90, _⟩ => ⟨S1024x10, .f32⟩
  | .hbm, ⟨91, _⟩ => ⟨S1024x10, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_c_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_call1_cst : Ref sig .tc := ⟨.hbm, 69, rfl⟩
abbrev main_call1_v0 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_11 : Ref sig .tc := ⟨.hbm, 76, rfl⟩
abbrev main_v50 : Ref sig .tc := ⟨.hbm, 77, rfl⟩
abbrev main_cst_12 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_13 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1024x64 : S_.BroadcastsInDim S1024x64 (![] : Fin 0 → Fin S1024x64.rank)
  bcast_S100000_S100000x1_0 : S100000.BroadcastsInDim S100000x1 (![0] : Fin 1 → Fin S100000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  bcast_S10_S1x10_1 : S10.BroadcastsInDim S1x10 (![1] : Fin 1 → Fin S1x10.rank)
  bcast_S1x10_S1024x10_0_1 : S1x10.BroadcastsInDim S1024x10 (![0, 1] : Fin 2 → Fin S1024x10.rank)
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  dot_S100000x128_S128x64_S100000x64_1_0_0_1_n_n_wf : DotDims.WF S100000x128 S128x64 S100000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S1024x64_S100000x1_S100000x64_1_0_0_1_wf : ScatterDims.WF S1024x64 S100000x1 S100000x64 [1] [0] [0] 1
  scatter_S1024_S100000x1_S100000_n_0_0_1_wf : ScatterDims.WF S1024 S100000x1 S100000 [] [0] [0] 1
  dot_S1024x64_S64x10_S1024x10_1_0_0_1_n_n_wf : DotDims.WF S1024x64 S64x10 S1024x10 [1] [0] [0] [1] [] []

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x64_S64x10_S1024x10_1_0_0_1_n_n : DotDims S1024x64 S64x10 S1024x10 where
  lhsContracting := [1]
  rhsContracting := [0]
  lhsNonContracting := [0]
  rhsNonContracting := [1]
  lhsBatch := []
  rhsBatch := []
  wf := dot_S1024x64_S64x10_S1024x10_1_0_0_1_n_n_wf

class Facts : Prop extends Facts₀ where

variable [Facts]
-- ==== Proof.ConvRegion.lean ====
/- Region 0 of the forward pass (the feature transform h = x·W), at a parameter `V`: the blocks the three
   windows hold at a grid point, what the body leaves in the output buffer, the proof data of the pipeline
   and its body obligation. -/
import proofs.«400008_j68461778698647_1_alg».proof.Proof.Gen.KernelIdeal.Launch
import proofs.«400008_j68461778698647_1_alg».proof.Proof.Gen.KernelIdeal.Skeleton
import proofs.«400008_j68461778698647_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place: where the window is not fetched its block
    index has not moved, so the block of the point before is the block of this point. Window 0 (the rows of `x`,
    fetched at every point) -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- and window 1 (the whole weight matrix, fetched at the first point only: its block index is constant). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each of the three buffers as one whole rectangle -/

abbrev rX : Rect S10000x128 := Rect.unit (s := S10000x128) ![0, 0] S10000x128.size inb_S10000x128_S10000x128_0_0
abbrev rW : Rect S128x64 := Rect.unit (s := S128x64) ![0, 0] S128x64.size inb_S128x64_S128x64_0_0
abbrev rO : Rect S10000x64 := Rect.unit (s := S10000x64) ![0, 0] S10000x64.size inb_S10000x64_S10000x64_0_0

/-! ## What the body leaves in the output window's buffer -/

/-- What the body leaves in the output buffer, from the two input buffers: its one store, of the payload at the
    two whole buffers read, over the whole buffer. -/
def convOut (x0 : Vec F S10000x128 .f32) (x1 : Vec F S128x64 .f32) : Vec F S10000x64 .bf16 :=
  View.canon [⟨rO, k0_pay1 (View.ld x0 rX) (View.ld x1 rW)⟩]

/-- The one store is over the whole buffer, so it covers it. -/
theorem coverO (p0 : Vec F S10000x64 .bf16) (y : S10000x64.Idx) :
    ∃ pc ∈ ([⟨rO, p0⟩] : List (View.Piece (Elt F) S10000x64 .bf16)), y ∈ pc.1.set :=
  View.cover_of_tiled [⟨rO, p0⟩] S10000x64.size (by rfl) y

/-! ## The body's triple -/

set_option maxHeartbeats 1000000 in
/-- The kernel body on whole staging memrefs, the two inputs' at read contents `x0`, `x1` and the output's at
    anything, runs to the continuation holding the inputs' as they were and the output's at `convOut x0 x1`. -/
theorem sound_conv (c : Dev nD) (E : Set ℕ) (i : grid0.Coords)
    (arg1 : Memref sig .tc .vmem S10000x128 .f32) (harg1 : arg1.IsWhole)
    (arg2 : Memref sig .tc .vmem S128x64 .f32) (harg2 : arg2.IsWhole)
    (arg3 : Memref sig .tc .vmem S10000x64 .bf16) (harg3 : arg3.IsWhole)
    (x0 : Vec F S10000x128 .f32) (x1 : Vec F S128x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (convOut x0 x1)) -∗ K ⟨⟩))
      ⊢ wp frame (wpE (defs₀ (F := F)) Variants.none c none) E (cc0__conv_kernel i arg1 harg1 arg2 harg2 arg3 harg3) K := by
  simp only [cc0__conv_kernel_eq_skeleton]; unfold cc0__conv_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverO _)

/-! ## The pipeline's proof data -/

/-- The proof data of pipeline 0 on core `c`: the arrays as the region finds them (`V`); after the body at
    point `t` each input's buffer at its block and the output's at `convOut` of the two input blocks; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => convOut (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = convOut (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_conv` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_conv c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.PoolRegion.lean ====
/- The pooling region of the forward pass, on one core, at any contents `V` of the core's buffers when the region is entered.

   THE GRID. 98 points; point t sees the 1024 aggregated rows of block t (window 0), the whole padded batch vector
   (window 1), of which it reads the 1024 words at offset 1024·t (`batchAt`), the convolution bias (window 2), the
   classifier's matrix and bias (windows 3, 4), and one output block of 1024 x 10 logits (window 5). Two scratch buffers are
   carried from point to point: a 1024 x 64 accumulator of sums and a 1024 x 1 accumulator of counts.

   THE ACCUMULATORS (`accAt`). (The glosses in brackets read the payloads with their casts to bf16 left out: identities at
   the ideal instance.) After point 0 they hold the point's update applied to zeros: the sums are the payload
   `k1_pay5` of the point's batch words, its aggregated block, the bias and the zero block `k1_pay2` (zeros plus
   one-hot(graph = batch word) · relu(block + bias)), the counts the payload `k1_pay6` of the batch words and the zero
   column `k1_pay3` (zeros plus the one-hot's row sums). After point n + 1 they hold the same two payloads of that
   point's batch words, block and bias, applied to what point n left. `logitsBlk` is the payload `k1_pay1` of the two
   accumulators after point 97 and the classifier's matrix and bias: (sums / max(counts, 1)) · W + b.

   THE THREE KINDS OF POINT, decided over the grid in closed form (`hcond1_0`: the reset's condition holds exactly at
   t = 0; `hcond1_1`: the final store's exactly at t = 97), each with the body's triple on whole memrefs over explicit
   contents (`run_first`, `run_mid`, `run_last`): the FIRST point stores zeros over both accumulators, whatever they
   held, then stores the update over each; a MIDDLE point stores the update over each accumulator as it found them; the
   LAST point does that and then stores `k1_pay1` of the updated accumulators, the matrix and the bias over the whole
   output buffer, whatever it held. Every store covers its buffer and every load reads a whole buffer (the batch words
   excepted: a slice), so what a buffer holds afterwards is the last payload stored into it. The five input buffers are
   left as found at every point.

   THE INVARIANT (`PhiS1`). Before point 0 it is the class's: every scoped buffer of the core that is no staging buffer of
   this region — the other region's five staging buffers and the two accumulators — at some contents, and the generator
   register at some state. Before point n + 1: the other region's five staging buffers at some contents, the sum
   accumulator at `(accAt n).1` and the count accumulator at `(accAt n).2` exactly, the generator register at some state.
   Forgetting the accumulators' contents gives the class's invariant back after the last point (`hout1`).

   THE PROOF DATA (`dat1`). The arrays are `V`'s; after the body each input window's buffer holds its block (`iblk1`),
   and so does before it, fetched at that point or not (`before1_0` … `before1_4`); nothing is owed, the shares are
   full. For the output window the field `after` is `logitsBlk` at every point. At the last point the window is live: the
   body is handed its buffer at whatever it holds and leaves the logits there, which the pipeline then writes back. At
   every other point the configuration calls the window idle and does not write it back, the field is not consulted, and
   the obligation's post there is the buffer at the very contents it was handed with: the body's triple takes the output
   buffer at given contents and returns it at the same. `body_obligation1` is the three triples under the case split. -/
import proofs.«400008_j68461778698647_1_alg».proof.Proof.Gen.KernelIdeal.Launch
import proofs.«400008_j68461778698647_1_alg».proof.Proof.Gen.KernelIdeal.Skeleton
import proofs.«400008_j68461778698647_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The pooling region: the windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The blocks under their literal types: the aggregated rows of the point, the whole padded batch vector,
    the convolution bias, the classifier's matrix and its bias. -/
abbrev aggBlk (c : Dev nD) (t : Fin cfg1.N) : Vec F S1024x64 .f32 := iblk1 V c 0 t
abbrev batchArr (c : Dev nD) (t : Fin cfg1.N) : Vec F S100352 .i32 := iblk1 V c 1 t
abbrev biasBlk (c : Dev nD) (t : Fin cfg1.N) : Vec F S64 .f32 := iblk1 V c 2 t
abbrev linWBlk (c : Dev nD) (t : Fin cfg1.N) : Vec F S64x10 .f32 := iblk1 V c 3 t
abbrev linBBlk (c : Dev nD) (t : Fin cfg1.N) : Vec F S10 .f32 := iblk1 V c 4 t

/-- The rectangle of the point's 1024 batch words inside the padded batch vector. -/
abbrev batchRect (i : grid1.Coords) : Rect S100352 := Rect.unit (s := S100352) (k1_off1 i) S1024.size (k1_off1_inb i)

/-- The batch words of the point's 1024 rows: the slice at offset 1024·t of the padded batch array. -/
def batchAt (c : Dev nD) (t : Fin cfg1.N) : Vec F S1024 .i32 :=
  View.ld (batchArr V c t) (batchRect (grid1.coords t))

/-- sum_acc and cnt_acc after the body at position n: zeros accumulated with the points 0 … n. -/
def accAt (c : Dev nD) : (n : ℕ) → n < cfg1.N → Vec F S1024x64 .f32 × Vec F S1024x1 .f32
  | 0, h => (k1_pay5 (batchAt V c ⟨0, h⟩) (aggBlk V c ⟨0, h⟩) (biasBlk V c ⟨0, h⟩) k1_pay2, k1_pay6 (batchAt V c ⟨0, h⟩) k1_pay3)
  | n + 1, h => (k1_pay5 (batchAt V c ⟨n + 1, h⟩) (aggBlk V c ⟨n + 1, h⟩) (biasBlk V c ⟨n + 1, h⟩) (accAt c n (Nat.lt_of_succ_lt h)).1,
      k1_pay6 (batchAt V c ⟨n + 1, h⟩) (accAt c n (Nat.lt_of_succ_lt h)).2)

theorem lt97 : 97 < cfg1.N := by show 97 < grid1.N; rw [N_1]; decide

/-- The last grid point. -/
abbrev tLast : Fin cfg1.N := ⟨97, lt97⟩

/-- What the last point stores into the output buffer. -/
def logitsBlk (c : Dev nD) : Vec F S1024x10 .f32 :=
  k1_pay1 (accAt V c 97 lt97).1 (accAt V c 97 lt97).2 (linWBlk V c tLast) (linBBlk V c tLast)

/-! # The region invariant -/

/-- The scratch operands: whole scoped buffers of the kernel's own, passed beside the windows. -/
abbrev scM1_0 : Memref sig .tc .vmem S1024x64 .f32 := Memref.whole cc1_scratch0
abbrev scM1_1 : Memref sig .tc .vmem S1024x1 .f32 := Memref.whole cc1_scratch1

/-- The other region's staging buffers, each at some contents: scoped buffers this region never touches. -/
def restStg (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The class's invariant with the scratch operands as memrefs owned at some contents. -/
theorem PhiA1_eq (c : Dev nD) :
    (Pipeline.ΦA spec1 c : sProp 𝕄)
      = iprop(restStg (F := F) c ∗ (∃ d, owns (c : Thread nD τ) scM1_0 fullShare d) ∗ (∃ d, owns (c : Thread nD τ) scM1_1 fullShare d) ∗ (∃ r, prngReg c r)) := by
  unfold Pipeline.ΦA restStg; rw [scopedRest1_eq]; simp only [scM1_0, scM1_1, owns_whole]
  refine BI.equiv_iff.mp ⟨?_, ?_⟩
  · show (_ : sProp 𝕄) ⊢ _
    iintro ⟨⟨A, B, C, D, E, S0, S1⟩, Hg⟩
    isplitl [A B C D E]
    · isplitl [A]; · iexact A
      isplitl [B]; · iexact B
      isplitl [C]; · iexact C
      isplitl [D]; · iexact D
      iexact E
    isplitl [S0]; · iexact S0
    isplitl [S1]; · iexact S1
    iexact Hg
  · show (_ : sProp 𝕄) ⊢ _
    iintro ⟨⟨A, B, C, D, E⟩, S0, S1, Hg⟩
    isplitr [Hg]
    · isplitl [A]; · iexact A
      isplitl [B]; · iexact B
      isplitl [C]; · iexact C
      isplitl [D]; · iexact D
      isplitl [E]; · iexact E
      isplitl [S0]; · iexact S0
      iexact S1
    iexact Hg

/-- The region invariant before position `n`: before the first point the class's (every scratch at anything);
    afterwards the two accumulators at what the point before left in them (`accAt`), the other scoped buffers at
    anything, the generator register at some state. -/
def PhiS1 (c : Dev nD) : (n : ℕ) → n ≤ cfg1.N → sProp 𝕄
  | 0, _ => Pipeline.ΦA spec1 c
  | n + 1, hn => iprop(restStg (F := F) c ∗ owns (c : Thread nD τ) scM1_0 fullShare (accAt V c n hn).1 ∗ owns (c : Thread nD τ) scM1_1 fullShare (accAt V c n hn).2 ∗ (∃ r, prngReg c r))

/-! # The pipeline's proof data -/

/-- The proof data of the pooling pipeline on core `c`: the arrays as the region finds them; after the body each input's
    buffer at its block, the output's at the logits the last point stores (at the idle points the field is not consulted);
    the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => logitsBlk V c
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = logitsBlk V c := by dsimp only [dat1]

theorem after1_5_last (c : Dev nD) (t : Fin cfg1.N) (ht : t.val = 97) : (dat1 V c).after 5 t = logitsBlk V c :=
  after1_5 V c t

/-! # The body's branch conditions, in closed form over the grid -/

/-- The condition of the first `scf.if` (the accumulators' reset), from the grid coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The condition of the last `scf.if` (the logits' store), from the grid coordinates. -/
abbrev cond1_1 (i : grid1.Coords) : Prop := k1_cond2 i = 1#1
/-- It holds at the last point only. -/
theorem hcond1_1 : ∀ t : Fin cfg1.N, cond1_1 (grid1.coords t) ↔ t.val = 97 :=
  (by decide +kernel : ∀ t : Fin grid1.N, cond1_1 (grid1.coords t) ↔ t.val = 97)

theorem hz2 : (![0, 0] : Fin 2 → Nat) = fun _ => 0 := funext fun a => by fin_cases a <;> rfl
theorem hz1 : (![0] : Fin 1 → Nat) = fun _ => 0 := funext fun a => by fin_cases a <;> rfl

/-! # The body's triple, case by case

The kernel body on whole memrefs — the inputs' at their contents, the accumulators at what the point before left (at
anything at the first point), the output's at what it held (at anything at the last point) — runs to the continuation
holding the inputs' as they were, the accumulators at this point's contents, and the output's untouched (at the last
point: at the logits). The printed functions are their skeletons; a whole-buffer store leaves its payload, a whole-buffer
load reads the contents. -/

set_option maxHeartbeats 4000000 in
theorem run_first (c : Dev nD) (E : Set ℕ) (i : grid1.Coords) (arg1 : Memref sig .tc .vmem S1024x64 .f32) (harg1 : arg1.IsWhole) (arg2 : Memref sig .tc .vmem S100352 .i32) (harg2 : arg2.IsWhole) (arg3 : Memref sig .tc .vmem S64 .f32) (harg3 : arg3.IsWhole) (arg4 : Memref sig .tc .vmem S64x10 .f32) (harg4 : arg4.IsWhole) (arg5 : Memref sig .tc .vmem S10 .f32) (harg5 : arg5.IsWhole) (arg6 : Memref sig .tc .vmem S1024x10 .f32) (harg6 : arg6.IsWhole) (arg7 : Memref sig .tc .vmem S1024x64 .f32) (harg7 : arg7.IsWhole) (arg8 : Memref sig .tc .vmem S1024x1 .f32) (harg8 : arg8.IsWhole)
    (hc0 : cond1_0 i) (hc1 : ¬cond1_1 i) (x5 : Vec F S1024x10 .f32) (x0 : Vec F S1024x64 .f32) (x1 : Vec F S100352 .i32) (x2 : Vec F S64 .f32) (x3 : Vec F S64x10 .f32) (x4 : Vec F S10 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (k1_pay5 (View.ld x1 (batchRect i)) x0 x2 k1_pay2)
            ∗ owns (c : Thread nD τ) arg8 fullShare (k1_pay6 (View.ld x1 (batchRect i)) k1_pay3)) -∗ K ⟨⟩))
      ⊢ wp frame (wpE (defs₀ (F := F)) Variants.none c none) E (cc1__pool_kernel i arg1 harg1 arg2 harg2 arg3 harg3 arg4 harg4 arg5 harg5 arg6 harg6 arg7 harg7 arg8 harg8) K := by
  simp only [cc1__pool_kernel_eq_skeleton]; unfold cc1__pool_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%d8, %f8, -, H8⟩, Hk⟩
  subst hf0 hf1 hf2 hf3 hf4 hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H7]
  · iexists _; isplitr
    swap; · iexact H7
    ipureintro
    try sl_unfold_words
    rw [View.read_writes_eq_canon _ _ _ (fun y => ⟨_, List.Mem.head _, View.mem_set_unit_zero hz2 inb_S1024x64_S1024x64_0_0 y⟩), View.canon_cons_unit_zero (S := S1024x64) hz2]
    simp only [View.readAt_eq_ld, View.ld_unit_zero (S := S1024x64) hz2, View.ld_unit_zero (S := S64) hz1, View.readCov_unit_zero (S := S1024x64) _ hz2]
    rfl
  iexists _; isplitr
  swap; · iexact H8
  ipureintro
  try sl_unfold_words
  rw [View.read_writes_eq_canon _ _ _ (fun y => ⟨_, List.Mem.head _, View.mem_set_unit_zero hz2 inb_S1024x1_S1024x1_0_0 y⟩), View.canon_cons_unit_zero (S := S1024x1) hz2]
  simp only [View.readAt_eq_ld, View.readCov_unit_zero (S := S1024x1) _ hz2]
  rfl

set_option maxHeartbeats 4000000 in
theorem run_mid (c : Dev nD) (E : Set ℕ) (i : grid1.Coords) (arg1 : Memref sig .tc .vmem S1024x64 .f32) (harg1 : arg1.IsWhole) (arg2 : Memref sig .tc .vmem S100352 .i32) (harg2 : arg2.IsWhole) (arg3 : Memref sig .tc .vmem S64 .f32) (harg3 : arg3.IsWhole) (arg4 : Memref sig .tc .vmem S64x10 .f32) (harg4 : arg4.IsWhole) (arg5 : Memref sig .tc .vmem S10 .f32) (harg5 : arg5.IsWhole) (arg6 : Memref sig .tc .vmem S1024x10 .f32) (harg6 : arg6.IsWhole) (arg7 : Memref sig .tc .vmem S1024x64 .f32) (harg7 : arg7.IsWhole) (arg8 : Memref sig .tc .vmem S1024x1 .f32) (harg8 : arg8.IsWhole)
    (hc0 : ¬cond1_0 i) (hc1 : ¬cond1_1 i) (x5 : Vec F S1024x10 .f32) (s0 : Vec F S1024x64 .f32) (s1 : Vec F S1024x1 .f32) (x0 : Vec F S1024x64 .f32) (x1 : Vec F S100352 .i32) (x2 : Vec F S64 .f32) (x3 : Vec F S64x10 .f32) (x4 : Vec F S10 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare s0 ∗ owns (c : Thread nD τ) arg8 fullShare s1
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (k1_pay5 (View.ld x1 (batchRect i)) x0 x2 s0)
            ∗ owns (c : Thread nD τ) arg8 fullShare (k1_pay6 (View.ld x1 (batchRect i)) s1)) -∗ K ⟨⟩))
      ⊢ wp frame (wpE (defs₀ (F := F)) Variants.none c none) E (cc1__pool_kernel i arg1 harg1 arg2 harg2 arg3 harg3 arg4 harg4 arg5 harg5 arg6 harg6 arg7 harg7 arg8 harg8) K := by
  simp only [cc1__pool_kernel_eq_skeleton]; unfold cc1__pool_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f7, %hf7, H7⟩, ⟨%f8, %hf8, H8⟩, Hk⟩
  subst hf0 hf1 hf2 hf3 hf4 hf5 hf7 hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H7]
  · iexists _; isplitr
    swap; · iexact H7
    ipureintro
    try sl_unfold_words
    rw [View.read_writes_eq_canon _ _ _ (fun y => ⟨_, List.Mem.head _, View.mem_set_unit_zero hz2 inb_S1024x64_S1024x64_0_0 y⟩), View.canon_cons_unit_zero (S := S1024x64) hz2]
    simp only [View.readAt_eq_ld, View.ld_unit_zero (S := S1024x64) hz2, View.ld_unit_zero (S := S64) hz1, View.ld_unit_zero (S := S64x10) hz2, View.ld_unit_zero (S := S10) hz1, View.ld_unit_zero (S := S1024x1) hz2, View.readCov_unit_zero (S := S1024x64) _ hz2, View.readCov_unit_zero (S := S1024x1) _ hz2]
    try rfl
  iexists _; isplitr
  swap; · iexact H8
  ipureintro
  try sl_unfold_words
  rw [View.read_writes_eq_canon _ _ _ (fun y => ⟨_, List.Mem.head _, View.mem_set_unit_zero hz2 inb_S1024x1_S1024x1_0_0 y⟩), View.canon_cons_unit_zero (S := S1024x1) hz2]
  simp only [View.readAt_eq_ld, View.ld_unit_zero (S := S1024x64) hz2, View.ld_unit_zero (S := S64) hz1, View.ld_unit_zero (S := S64x10) hz2, View.ld_unit_zero (S := S10) hz1, View.ld_unit_zero (S := S1024x1) hz2, View.readCov_unit_zero (S := S1024x64) _ hz2, View.readCov_unit_zero (S := S1024x1) _ hz2]
  try rfl

set_option maxHeartbeats 4000000 in
theorem run_last (c : Dev nD) (E : Set ℕ) (i : grid1.Coords) (arg1 : Memref sig .tc .vmem S1024x64 .f32) (harg1 : arg1.IsWhole) (arg2 : Memref sig .tc .vmem S100352 .i32) (harg2 : arg2.IsWhole) (arg3 : Memref sig .tc .vmem S64 .f32) (harg3 : arg3.IsWhole) (arg4 : Memref sig .tc .vmem S64x10 .f32) (harg4 : arg4.IsWhole) (arg5 : Memref sig .tc .vmem S10 .f32) (harg5 : arg5.IsWhole) (arg6 : Memref sig .tc .vmem S1024x10 .f32) (harg6 : arg6.IsWhole) (arg7 : Memref sig .tc .vmem S1024x64 .f32) (harg7 : arg7.IsWhole) (arg8 : Memref sig .tc .vmem S1024x1 .f32) (harg8 : arg8.IsWhole)
    (hc0 : ¬cond1_0 i) (hc1 : cond1_1 i) (s0 : Vec F S1024x64 .f32) (s1 : Vec F S1024x1 .f32) (x0 : Vec F S1024x64 .f32) (x1 : Vec F S100352 .i32) (x2 : Vec F S64 .f32) (x3 : Vec F S64x10 .f32) (x4 : Vec F S10 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ owns (c : Thread nD τ) arg7 fullShare s0 ∗ owns (c : Thread nD τ) arg8 fullShare s1
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (k1_pay1 (k1_pay5 (View.ld x1 (batchRect i)) x0 x2 s0) (k1_pay6 (View.ld x1 (batchRect i)) s1) x3 x4)
            ∗ owns (c : Thread nD τ) arg7 fullShare (k1_pay5 (View.ld x1 (batchRect i)) x0 x2 s0)
            ∗ owns (c : Thread nD τ) arg8 fullShare (k1_pay6 (View.ld x1 (batchRect i)) s1)) -∗ K ⟨⟩))
      ⊢ wp frame (wpE (defs₀ (F := F)) Variants.none c none) E (cc1__pool_kernel i arg1 harg1 arg2 harg2 arg3 harg3 arg4 harg4 arg5 harg5 arg6 harg6 arg7 harg7 arg8 harg8) K := by
  simp only [cc1__pool_kernel_eq_skeleton]; unfold cc1__pool_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%f7, %hf7, H7⟩, ⟨%f8, %hf8, H8⟩, Hk⟩
  subst hf0 hf1 hf2 hf3 hf4 hf7 hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    try sl_unfold_words
    rw [View.read_writes_eq_canon _ _ _ (fun y => ⟨_, List.Mem.head _, View.mem_set_unit_zero hz2 inb_S1024x10_S1024x10_0_0 y⟩), View.canon_cons_unit_zero (S := S1024x10) hz2]
    simp only [View.readAt_eq_ld, View.ld_unit_zero (S := S1024x64) hz2, View.ld_unit_zero (S := S64) hz1, View.ld_unit_zero (S := S64x10) hz2, View.ld_unit_zero (S := S10) hz1, View.ld_unit_zero (S := S1024x1) hz2, View.readCov_unit_zero (S := S1024x64) _ hz2, View.readCov_unit_zero (S := S1024x1) _ hz2]
    try rfl
  isplitl [H7]
  · iexists _; isplitr
    swap; · iexact H7
    ipureintro
    try sl_unfold_words
    rw [View.read_writes_eq_canon _ _ _ (fun y => ⟨_, List.Mem.head _, View.mem_set_unit_zero hz2 inb_S1024x64_S1024x64_0_0 y⟩), View.canon_cons_unit_zero (S := S1024x64) hz2]
    simp only [View.readAt_eq_ld, View.ld_unit_zero (S := S1024x64) hz2, View.ld_unit_zero (S := S64) hz1, View.ld_unit_zero (S := S64x10) hz2, View.ld_unit_zero (S := S10) hz1, View.ld_unit_zero (S := S1024x1) hz2, View.readCov_unit_zero (S := S1024x64) _ hz2, View.readCov_unit_zero (S := S1024x1) _ hz2]
    try rfl
  iexists _; isplitr
  swap; · iexact H8
  ipureintro
  try sl_unfold_words
  rw [View.read_writes_eq_canon _ _ _ (fun y => ⟨_, List.Mem.head _, View.mem_set_unit_zero hz2 inb_S1024x1_S1024x1_0_0 y⟩), View.canon_cons_unit_zero (S := S1024x1) hz2]
  simp only [View.readAt_eq_ld, View.ld_unit_zero (S := S1024x64) hz2, View.ld_unit_zero (S := S64) hz1, View.ld_unit_zero (S := S64x10) hz2, View.ld_unit_zero (S := S10) hz1, View.ld_unit_zero (S := S1024x1) hz2, View.readCov_unit_zero (S := S1024x64) _ hz2, View.readCov_unit_zero (S := S1024x1) _ hz2]
  try rfl

/-! # Where the windows are idle (the printed configuration's table) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- Away from the last point the configuration calls the output idle: the body stores nothing into it there, -/
theorem idleAt1_5 : ∀ t : Fin cfg1.N, ¬cond1_1 (grid1.coords t) → cfg1.idle 5 (grid1.coords t) = true :=
  (by decide +kernel : ∀ t : Fin grid1.N, ¬cond1_1 (grid1.coords t) → cfg1.idle 5 (grid1.coords t) = true)
/-- and the pipeline does not write its block back there. -/
theorem noFlush1_5 : ∀ t : Fin cfg1.N, ¬cond1_1 (grid1.coords t) → (cfg1.win 5).flush t = false :=
  (by decide +kernel : ∀ t : Fin grid1.N, ¬cond1_1 (grid1.coords t) → win1_5.flush t = false)
/-- At the last point the output is live: the body stores the logits into it. -/
theorem liveAt1_5 : ∀ t : Fin cfg1.N, cond1_1 (grid1.coords t) → cfg1.idle 5 (grid1.coords t) = false :=
  (by decide +kernel : ∀ t : Fin grid1.N, cond1_1 (grid1.coords t) → cfg1.idle 5 (grid1.coords t) = false)

/-- Input window 0's current staging buffer holds its block at every point, fetched there or not: unfetched, the block
    index has not moved and the body left the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: unfetched, the block
    index has not moved and the body left the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: unfetched, the block
    index has not moved and the body left the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: unfetched, the block
    index has not moved and the body left the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: unfetched, the block
    index has not moved and the body left the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

theorem PhiS1_zero (c : Dev nD) (n : ℕ) (h : n ≤ cfg1.N) (hz : n = 0) : PhiS1 V c n h = Pipeline.ΦA spec1 c := by
  subst hz; rfl

/-- After point `n` (before point `n + 1`): the accumulators at that point's contents. -/
theorem PhiS1_succ (c : Dev nD) (n : ℕ) (hn : n < cfg1.N) :
    PhiS1 V c (n + 1) hn = iprop(restStg (F := F) c ∗ owns (c : Thread nD τ) scM1_0 fullShare (accAt V c n hn).1 ∗ owns (c : Thread nD τ) scM1_1 fullShare (accAt V c n hn).2 ∗ (∃ r, prngReg c r)) := rfl

/-- Before a point that is not the first: the accumulators at what the point before left. -/
theorem PhiS1_pos (c : Dev nD) (n : ℕ) (h : n ≤ cfg1.N) (hz : n ≠ 0) :
    PhiS1 V c n h = iprop(restStg (F := F) c ∗ owns (c : Thread nD τ) scM1_0 fullShare (accAt V c (n - 1) (by omega)).1 ∗ owns (c : Thread nD τ) scM1_1 fullShare (accAt V c (n - 1) (by omega)).2 ∗ (∃ r, prngReg c r)) := by
  cases n with
  | zero => exact absurd rfl hz
  | succ n => rfl

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- The accumulators after the first point: zeros accumulated with its rows. -/
theorem accAt_first (c : Dev nD) (t : Fin cfg1.N) (h0 : t.val = 0) :
    accAt V c t.val t.isLt = (k1_pay5 (batchAt V c t) (aggBlk V c t) (biasBlk V c t) k1_pay2, k1_pay6 (batchAt V c t) k1_pay3) := by
  obtain ⟨n, hn⟩ := t
  cases n with
  | zero => rfl
  | succ n => exact absurd h0 (Nat.succ_ne_zero n)

/-- The accumulators after a later point: what the point before left, accumulated with this point's rows. -/
theorem accAt_pos (c : Dev nD) (t : Fin cfg1.N) (h0 : t.val ≠ 0) :
    accAt V c t.val t.isLt = (k1_pay5 (batchAt V c t) (aggBlk V c t) (biasBlk V c t) (accAt V c (t.val - 1) (Nat.lt_of_le_of_lt (Nat.sub_le _ _) t.isLt)).1,
      k1_pay6 (batchAt V c t) (accAt V c (t.val - 1) (Nat.lt_of_le_of_lt (Nat.sub_le _ _) t.isLt)).2) := by
  obtain ⟨n, hn⟩ := t
  cases n with
  | zero => exact absurd rfl h0
  | succ n => rfl

/-! # The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4000000 in
/-- The body at any point: the inputs' memrefs hold their blocks; the closed forms say which case the point is in; the invariant
    hands the body the accumulators at what the point before left (at anything at the first point) and takes them back at this
    point's contents; the output's buffer is handed back untouched away from the last point, and at the last point holds the
    logits; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ, PhiS1_castSucc]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  by_cases h0 : t.val = 0
  · have h97 : ¬t.val = 97 := by omega
    have hc0 : cond1_0 (grid1.coords t) := (hcond1_0 t).mpr h0
    have hc1 : ¬cond1_1 (grid1.coords t) := fun h => h97 ((hcond1_1 t).mp h)
    rw [Dat.leavesExact_idle (dat1 V c) 5 t (idleAt1_5 t hc1) (noFlush1_5 t hc1)]
    rw [PhiS1_zero V c _ _ h0, PhiA1_eq, accAt_first V c t h0]
    dsimp only
    unfold batchAt
    iintro ⟨⟨Hr, ⟨%d7, HS0⟩, ⟨%d8, HS1⟩, Hg⟩, Ho, ⟨%d0, H0⟩, ⟨%d1, H1⟩, ⟨%d2, H2⟩, ⟨%d3, H3⟩, ⟨%d4, H4⟩, ⟨%d5, H5⟩⟩
    iapply (run_first c Set.univ (grid1.coords t) _ _ _ _ _ _ _ _ _ _ _ _ _ _ _ _ hc0 hc1 _ (aggBlk V c t) (batchArr V c t) (biasBlk V c t) (linWBlk V c t) (linBBlk V c t) _)
    isplitl [H0]; · iexact H0
    isplitl [H1]; · iexact H1
    isplitl [H2]; · iexact H2
    isplitl [H3]; · iexact H3
    isplitl [H4]; · iexact H4
    isplitl [H5]; · iexact H5
    isplitl [HS0]; · iexists _; iexact HS0
    isplitl [HS1]; · iexists _; iexact HS1
    iintro ⟨H0, H1, H2, H3, H4, H5, HS0, HS1⟩
    isplitl [Hr HS0 HS1 Hg]
    · isplitl [Hr]; · iexact Hr
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h97 : t.val = 97
    · obtain rfl : t = tLast := Fin.ext h97
      have hc0 : ¬cond1_0 (grid1.coords tLast) := fun h => h0 ((hcond1_0 tLast).mp h)
      have hc1 : cond1_1 (grid1.coords tLast) := (hcond1_1 tLast).mpr h97
      rw [show (dat1 V c).leavesExact 5 tLast = owns (c : Thread nD τ) (st1_5 tLast) fullShare ((dat1 V c).after 5 tLast) from by
        unfold Dat.leavesExact; rw [liveAt1_5 tLast hc1], after1_5]
      unfold logitsBlk
      rw [PhiS1_pos V c _ _ h0, accAt_pos V c tLast h0]
      dsimp only
      unfold batchAt
      iintro ⟨⟨Hr, HS0, HS1, Hg⟩, Ho, ⟨%d0, H0⟩, ⟨%d1, H1⟩, ⟨%d2, H2⟩, ⟨%d3, H3⟩, ⟨%d4, H4⟩, ⟨%d5, H5⟩⟩
      iapply (run_last c Set.univ (grid1.coords tLast) _ _ _ _ _ _ _ _ _ _ _ _ _ _ _ _ hc0 hc1 _ _ (aggBlk V c tLast) (batchArr V c tLast) (biasBlk V c tLast) (linWBlk V c tLast) (linBBlk V c tLast) _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [Hr HS0 HS1 Hg]
      · isplitl [Hr]; · iexact Hr
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc0 : ¬cond1_0 (grid1.coords t) := fun h => h0 ((hcond1_0 t).mp h)
      have hc1 : ¬cond1_1 (grid1.coords t) := fun h => h97 ((hcond1_1 t).mp h)
      rw [Dat.leavesExact_idle (dat1 V c) 5 t (idleAt1_5 t hc1) (noFlush1_5 t hc1)]
      rw [PhiS1_pos V c _ _ h0, accAt_pos V c t h0]
      dsimp only
      unfold batchAt
      iintro ⟨⟨Hr, HS0, HS1, Hg⟩, Ho, ⟨%d0, H0⟩, ⟨%d1, H1⟩, ⟨%d2, H2⟩, ⟨%d3, H3⟩, ⟨%d4, H4⟩, ⟨%d5, H5⟩⟩
      iapply (run_mid c Set.univ (grid1.coords t) _ _ _ _ _ _ _ _ _ _ _ _ _ _ _ _ hc0 hc1 _ _ _ (aggBlk V c t) (batchArr V c t) (biasBlk V c t) (linWBlk V c t) (linBBlk V c t) _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [Hr HS0 HS1 Hg]
      · isplitl [Hr]; · iexact Hr
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨Hr, HS0, HS1, Hg⟩
  isplitl [Hr]; · iexact Hr
  isplitl [HS0]; · iexists _; iexact HS0
  isplitl [HS1]; · iexists _; iexact HS1
  iexact Hg

/-- The same after the last point. -/
theorem hout1 (c : Dev nD) : (dat1 V c).Φ (Fin.last cfg1.N) ⊢ Pipeline.ΦA spec1 c :=
  Phi_out1 V c _ (by rw [Fin.val_last]; have : cfg1.N = 98 := N_1; omega)

end Cert.KernelIdeal.Hand

end
-- ==== Proof.KernelRun.lean ====
/-
  The kernel program run from launch to return (the same text serves the program at either instance).

  @main is nine items: three stretches of host operations, the dense-transform region, four more stretches,
  the pooling region. Between two items a core holds every unscoped buffer at a known valuation — the launch
  contents, then each stretch applied, then, after a region, its output array at what the region's
  write-backs leave — beside the generator register at some state and nothing owed. Each region is entered
  by splitting its windows' arrays out of the unscoped buffers and left by putting them back at their final
  contents; the pooling region's invariant carries the two accumulators from point to point and starts and
  ends at the scoped rest.
-/
import proofs.«400008_j68461778698647_1_alg».proof.Proof.Gen.KernelIdeal.Regions
import proofs.«400008_j68461778698647_1_alg».proof.Proof.ConvRegion
import proofs.«400008_j68461778698647_1_alg».proof.Proof.PoolRegion
import proofs.«400008_j68461778698647_1_alg».proof.Proof.Gen.KernelIdeal.Skeleton
import proofs.«400008_j68461778698647_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The regions' entry contents and what they leave -/

/-- Core `c`'s buffers when the dense-transform region is entered: the launch contents after the first three
    stretches of host operations. -/
abbrev Vin0 : (c : Dev nD) → (b : Ref sig .tc) → Buf (Elt F) ((c : Thread nD τ).loc b) := fun c b => V3 m c b

/-- What the dense-transform region leaves in its output array: its ten write-backs folded. -/
def convArr (c : Dev nD) : Buf (Elt F) ((c : Thread nD τ).loc main_v29) := (dat0 (Vin0 m) c).arrAt 2 cfg0.N

/-- The contents the regions leave, first stage: the transform's output named, nothing else known yet. -/
def outsA : Outs (F := F) := fun _ r c => if h : r = main_v29 then h ▸ convArr m c else V3 m c r

theorem outsA_v29 (J : ℕ) (c : Dev nD) : outsA m J main_v29 c = convArr m c := by
  unfold outsA; rw [dif_pos rfl]

/-- Core `c`'s buffers when the pooling region is entered. -/
abbrev Vin1 : (c : Dev nD) → (b : Ref sig .tc) → Buf (Elt F) ((c : Thread nD τ).loc b) := fun c b => V8 m (outsA m) c b

/-- What the pooling region leaves in its output array: its one write-back, at the last point. -/
def poolArr (c : Dev nD) : Buf (Elt F) ((c : Thread nD τ).loc main_v46) := (dat1 (Vin1 m) c).arrAt 5 cfg1.N

/-- The contents the regions leave: both output arrays named. -/
def outsB : Outs (F := F) := fun J r c => if h : r = main_v46 then h ▸ poolArr m c else outsA m J r c

theorem outsB_v46 (J : ℕ) (c : Dev nD) : outsB m J main_v46 c = poolArr m c := by
  unfold outsB; rw [dif_pos rfl]
theorem outsB_v29 (J : ℕ) (c : Dev nD) : outsB m J main_v29 c = convArr m c := by
  unfold outsB; rw [dif_neg (by decide), outsA_v29]

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the generator register at some state, and nothing owed. -/
abbrev Rr (c : Dev nD) : sProp 𝕄 := iprop((∃ r, prngReg c r) ∗ ∃ W, owes (c : Thread nD τ) (0 : CellTallies nD τ sig Unit) W)
/-- The riding state, the same before, between and after the regions. -/
def Es : Fin 3 → Dev nD → sProp 𝕄 := fun _ c => Rr c

/-! ## What each region leaves, against the valuations between the items -/

theorem V4_v29 (c : Dev nD) : V4 m (outsB m) c main_v29 = convArr m c := by
  simp only [V4, Function.update_self, outsB_v29]

theorem hF0 (c : Dev nD) (w : Fin cfg0.W) : (dat0 (Vin0 m) c).arrAt w cfg0.N = V4 m (outsB m) c (Pipeline.arrRef spec0 w) := by
  match w with
  | ⟨0, _⟩ => exact (((dat0 (Vin0 m) c).arrAt_in 0 rfl _).trans (A_eq0 (Vin0 m) c 0)).trans (V4_of m (outsB m) c main_arg0 (by decide)).symm
  | ⟨1, _⟩ => exact (((dat0 (Vin0 m) c).arrAt_in 1 rfl _).trans (A_eq0 (Vin0 m) c 1)).trans (V4_of m (outsB m) c main_arg5 (by decide)).symm
  | ⟨2, _⟩ => exact (V4_v29 m c).symm

theorem hrest0 (c : Dev nD) : ∀ b : Ref sig .tc, b ∉ Finset.univ.image (Pipeline.arrRef spec0) → V4 m (outsB m) c b = V3 m c b :=
  fun b hb => V4_of m (outsB m) c b (by
    intro h; rw [List.mem_singleton] at h; subst h
    exact hb (Finset.mem_image.mpr ⟨2, Finset.mem_univ _, rfl⟩))

theorem V9_v46 (c : Dev nD) : V9 m (outsB m) c main_v46 = poolArr m c := by
  simp only [V9, Function.update_self, outsB_v46]

/-- The valuation the pooling region is entered from does not depend on what that region leaves. -/
theorem V8_outs (c : Dev nD) : V8 m (outsB m) c = V8 m (outsA m) c := by
  have h4 : V4 m (outsB m) c = V4 m (outsA m) c := by
    simp only [V4, outsB_v29, outsA_v29]
  simp only [V8, V7, V6, V5, h4]

theorem hF1 (c : Dev nD) (w : Fin cfg1.W) : (dat1 (Vin1 m) c).arrAt w cfg1.N = V9 m (outsB m) c (Pipeline.arrRef spec1 w) := by
  have hback : ∀ b : Ref sig .tc, b ∉ ([main_v46] : List (Ref sig .tc)) → V9 m (outsB m) c b = Vin1 m c b :=
    fun b hb => (V9_of m (outsB m) c b hb).trans (by rw [V8_outs])
  match w with
  | ⟨0, _⟩ => exact (((dat1 (Vin1 m) c).arrAt_in 0 rfl _).trans (A_eq1 (Vin1 m) c 0)).trans (hback main_v44 (by decide)).symm
  | ⟨1, _⟩ => exact (((dat1 (Vin1 m) c).arrAt_in 1 rfl _).trans (A_eq1 (Vin1 m) c 1)).trans (hback main_v45 (by decide)).symm
  | ⟨2, _⟩ => exact (((dat1 (Vin1 m) c).arrAt_in 2 rfl _).trans (A_eq1 (Vin1 m) c 2)).trans (hback main_arg6 (by decide)).symm
  | ⟨3, _⟩ => exact (((dat1 (Vin1 m) c).arrAt_in 3 rfl _).trans (A_eq1 (Vin1 m) c 3)).trans (hback main_arg7 (by decide)).symm
  | ⟨4, _⟩ => exact (((dat1 (Vin1 m) c).arrAt_in 4 rfl _).trans (A_eq1 (Vin1 m) c 4)).trans (hback main_arg8 (by decide)).symm
  | ⟨5, _⟩ => exact (V9_v46 m c).symm

theorem hrest1 (c : Dev nD) : ∀ b : Ref sig .tc, b ∉ Finset.univ.image (Pipeline.arrRef spec1) → V9 m (outsB m) c b = V8 m (outsA m) c b :=
  fun b hb => (V9_of m (outsB m) c b (by
    intro h; rw [List.mem_singleton] at h; subst h
    exact hb (Finset.mem_image.mpr ⟨5, Finset.mem_univ _, rfl⟩))).trans (by rw [V8_outs])

/-! ## The regions as segments -/

set_option backward.isDefEq.respectTransparency.types false in
/-- The dense-transform region: entered from every unscoped buffer at the valuation after the third stretch, left
    at the same with its output array at its ten write-backs. Its arrays are split out of the unscoped buffers and
    put back; the generator register goes into the region's invariant and comes out; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (V3 m c) ∗ Rr c)
  post c := iprop(StableHlo.held (c : Thread nD τ) (Pipeline.ucRefs τ sig) (V4 m (outsB m) c) ∗ Rr c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (fun b => V4 m (outsB m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pooling region: entered from every unscoped buffer at the valuation after the seventh stretch, left at the
    same with its output array at its one write-back. Its invariant starts at the scoped rest with the generator
    register, carries the two accumulators from point to point, and ends at the scoped rest again. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (V8 m (outsB m) c) ∗ Rr c)
  post c := iprop(StableHlo.held (c : Thread nD τ) (Pipeline.ucRefs τ sig) (V9 m (outsB m) c) ∗ Rr c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none, V8_outs]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (hin1 (Vin1 m) c)
    unfold Pipeline.ΦA
    iintro ⟨Hp, -, Hr⟩
    isplitl [Hr]; · iexact Hr
    iexact Hp
  hout c := by
    rw [Pipeline.ownSems0_none]
    refine (hout1 (Vin1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (fun b => V9 m (outsB m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

open Idealize.ShloMosaic.Pipeline (Seg HostSeg RegionSeg)

/-- The launch's ghost state: the pipelines' cells and tokens, nothing else. -/
abbrev u₀ : UR sig nD τ := initOf (Pipeline.cells cfgs cellOf_inj) (Pipeline.launchToks cfgs cellOf_inj)

theorem hu₀ : (ownU (u₀ : UR sig nD τ) : sProp 𝕄) ⊢ |={Set.univ}=> iprop(BI.own (emb₁ (initOf (Pipeline.cells cfgs cellOf_inj) (Pipeline.launchToks cfgs cellOf_inj))) ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (Es (F := F) 0) : sProp 𝕄) :=
  Pipeline.initEach L lv fun c => by
    unfold Es
    iintro ⟨⟨-, HO, -, Hp, -⟩, -⟩
    imodintro
    isplitl [Hp]; · iexists _; iexact Hp
    iexists ∅; iexact HO

theorem hE2 (c : Dev nD) : Es (F := F) 2 c ⊢ (iprop(∃ W, owes (c : Thread nD τ) (0 : CellTallies nD τ sig Unit) W) : sProp 𝕄) := by
  unfold Es; iintro ⟨-, H⟩; iexact H

set_option backward.isDefEq.respectTransparency.types false in
/-- THE FRAME: from any memory with zero counters every weakly fair execution of @main terminates, nothing
    faulting, with every argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_cond m emb₁ () 𝒱₀ L lv (fun _ _ => rfl) ρ (outsB m) (pdats m) (0 : Dev nD → CellTallies nD τ sig Unit) (fun _ => iprop(emp)) u₀ hu₀
    Es (hE0 ρ) hE2 (reg0 m) (fun _ => .rfl) (fun _ => .rfl) (reg1 m) (fun _ => .rfl) (fun _ => .rfl)

set_option backward.isDefEq.respectTransparency.types false in
/-- THE RUN WITH THE BUFFERS NAMED: the same executions end with every unscoped buffer at the last valuation —
    in particular the result array at the pooling region's one write-back. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V9 m (outsB m) c b) := by
  refine Pipeline.θ_run_regions_kit_dev (pcfgs (F := F)) adm (pdats m) () cellOf_inj emb₁ defs₀ 𝒱₀ L lv m ρ main
    (segs m (outsB m) 𝒱₀ L lv Es () (pdats m) (reg0 m) (reg1 m))
    (fun c Q => by
      rewrite [main_chain c, Seg.run_eq_chain,
        show (segs m (outsB m) 𝒱₀ L lv Es () (pdats m) (reg0 m) (reg1 m) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()) ] from rfl]
      exact .rfl)
    (fun c => by simp only [segs, Seg.pipes_host, Seg.pipes_region, Seg.pipes_nil]; decide)
    (0 : Dev nD → CellTallies nD τ sig Unit) (fun _ _ => rfl) (fun _ => iprop(emp)) u₀ hu₀
    (T₀ := fun c => iprop(StableHlo.held (c : Thread nD τ) (Pipeline.ucRefs τ sig) (V0 m c) ∗ Es 0 c))
    (Tₙ := fun c => StableHlo.held (c : Thread nD τ) (Pipeline.ucRefs τ sig) (V9 m (outsB m) c))
    (hch := fun c => ⟨.rfl, .rfl, .rfl, .rfl, .rfl, .rfl, .rfl, .rfl, .rfl, sep_mono .rfl (hE2 c)⟩)
    (hinit := ?_) (QY := fun c s => ∀ b ∈ Pipeline.ucRefs τ sig, s.mem ((c : Thread nD τ).1, b) = V9 m (outsB m) c b)
    (hfin := fun c s' => ?_) (hQ := fun _ h => h)
  · -- the launch: the unscoped buffers are held at the launch contents; the rest makes the riding state on every core
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V9 m (outsB m) c) s') $$ [Hh HSI]
    · isplitl [Hh] <;> iassumption
    icases Hr with ⟨%h, HSI⟩
    imodintro
    isplitr
    · ipureintro
      exact h
    · iexact HSI

end Cert.KernelIdeal.Hand

end
-- ==== Proof.LibKeepdims.lean ====
/-
  General lemmas for a row reduction kept as a column (`jnp.sum(axis=1, keepdims=True)`): the cast of a
  length-`a` vector to an `[a, 1]` column read at an index, such a column broadcast across `b` lanes read at
  an index, and, at the ideal values, a float sum over axis 1 of an `[a, b]` array read at a row as the sum
  over the row's entries.  Stated over literal coordinates built by `ix1` / `ix2`.
-/
import Idealize.ShloMosaic.Lib.ValueIdx
import Idealize.ShloMosaic.Lib.Pipeline.Value
import Idealize.ShloMosaic.PureOps.Ideal.Laws

noncomputable section

namespace Idealize.ShloMosaic.ValueIdx

open Idealize.ShloMosaic

variable {α : Type}

/-- A length-`a` vector cast to an `[a, 1]` column reads, at `(i, u)`, the vector at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry in row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- At the ideal values a float sum over axis 1 of an `[a, b]` array, read at row `i`, is the sum over `d` of the
    entries `(i, d)`. The accumulator's evidence is taken as the equation of words a printed body carries. -/
theorem rowSum_apply {a b : ℕ} (y : FVec Ideal ⟨2, ![a, b]⟩ .f32) (h : Shape.Reduces ⟨2, ![a, b]⟩ [1] ⟨1, ![a]⟩)
    (hφ : FKind.Formats .f32) (hacc : (0x00000000#32 : BitVec 32) = 0x00000000#32) (i : Fin a) :
    multiReduction .add [1] ⟨1, ![a]⟩ y 0x00000000#32 h hφ hacc (ix1 i) = ∑ d : Fin b, y (ix2 i d) := by
  refine (Ideal.multiReduction_add_single y 0x00000000#32 h hφ hacc (ix1 i)).trans ?_
  refine Finset.sum_congr rfl fun d _ => congrArg y ?_
  funext c
  apply Fin.ext
  match c with
  | ⟨0, _⟩ => rfl
  | ⟨1, _⟩ => rfl

end Idealize.ShloMosaic.ValueIdx

end
-- ==== Proof.Payloads.lean ====
/-
  The payloads of the two kernel bodies, each read at one index at the ideal values: the first body's product of a
  block of rows with the weight matrix, the second body's zero splats, its one-hot of graph ids against a block of
  the batch vector, the two accumulator updates, and the final mean-and-linear-layer read-out.
-/
import proofs.«400008_j68461778698647_1_alg».proof.Proof.Gen.KernelIdeal.Skeleton
import proofs.«400008_j68461778698647_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.KernelIdeal.Pay

open Idealize.ShloMosaic Idealize.ShloMosaic.ValueIdx Cert.KernelIdeal Cert.KernelIdeal.Gen
open scoped BigOperators

/-! ## The first body: a block of rows times the weight matrix -/

/-- The left operand's row coordinate is the output's. -/
theorem conv_lhs_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide),
    dif_pos (show (0 : Fin S10000x128.rank) ∈ dot_S10000x128_S128x64_S10000x64_1_0_0_1_n_n.lhsNonContracting by decide)]
  rfl
/-- The left operand's column coordinate is the contraction's. -/
theorem conv_lhs_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
/-- The right operand's row coordinate is the contraction's. -/
theorem conv_rhs_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
/-- The right operand's column coordinate is the output's. -/
theorem conv_rhs_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide),
    dif_pos (show (1 : Fin S128x64.rank) ∈ dot_S10000x128_S128x64_S10000x64_1_0_0_1_n_n.rhsNonContracting by decide)]
  rfl

/-- The product of a [10000,128] block with the [128,64] weights into a zero accumulator, read at (r, k): the sum
    over the 128 shared coordinates of the entries' products. -/
theorem conv_matmul_apply (A : FVec Ideal S10000x128 .bf16) (B : FVec Ideal S128x64 .bf16) (r : Fin 10000) (k : Fin 64) :
    FloatOps.matmul dot_S10000x128_S128x64_S10000x64_1_0_0_1_n_n none A B (constant S10000x64 .f32 0x00000000#32) (ix2 r k)
      = ∑ j : Fin 128, A (ix2 r j) * B (ix2 j k) := by
  rw [Ideal.matmul_constant_zero_apply,
    ← Equiv.sum_comp (contrEquiv1 dot_S10000x128_S128x64_S10000x64_1_0_0_1_n_n 128 rfl rfl).symm]
  refine Finset.sum_congr rfl fun j _ => ?_
  have hj := contrEquiv1_symm_val dot_S10000x128_S128x64_S10000x64_1_0_0_1_n_n 128 rfl rfl j
  have el : dot_S10000x128_S128x64_S10000x64_1_0_0_1_n_n.lhsIdx (ix2 r k)
      ((contrEquiv1 dot_S10000x128_S128x64_S10000x64_1_0_0_1_n_n 128 rfl rfl).symm j) = ix2 r j :=
    funext fun a => Fin.ext (by
      match a with
      | ⟨0, _⟩ => exact conv_lhs_0 _ _
      | ⟨1, _⟩ => exact (conv_lhs_1 _ _).trans hj)
  have er : dot_S10000x128_S128x64_S10000x64_1_0_0_1_n_n.rhsIdx (ix2 r k)
      ((contrEquiv1 dot_S10000x128_S128x64_S10000x64_1_0_0_1_n_n 128 rfl rfl).symm j) = ix2 j k :=
    funext fun a => Fin.ext (by
      match a with
      | ⟨0, _⟩ => exact (conv_rhs_0 _ _).trans hj
      | ⟨1, _⟩ => exact conv_rhs_1 _ _)
  rw [el, er]

theorem pay0_apply (x : Vec Ideal S10000x128 .f32) (w : Vec Ideal S128x64 .f32) (r : Fin 10000) (k : Fin 64) :
    k0_pay1 (F := Ideal) x w (ix2 r k) = ∑ j : Fin 128, x (ix2 r j) * w (ix2 j k) := by
  unfold Gen.k0_pay1
  rw [truncf_apply]
  exact conv_matmul_apply _ _ r k

/-! ## The second body's zero splats: what the accumulators start from -/

theorem pay2_apply (g : Fin 1024) (k : Fin 64) : k1_pay2 (F := Ideal) (ix2 g k) = 0 := by
  unfold Gen.k1_pay2
  rw [shapeCast_self]
  exact Ideal.ofBits_zero_f32

theorem pay3_apply (g : Fin 1024) : k1_pay3 (F := Ideal) (ix2 g 0) = 0 := by
  unfold Gen.k1_pay3
  rw [shapeCast_self]
  exact Ideal.ofBits_zero_f32

/-! ## The one-hot of graph ids against a block of the batch vector -/

/-- One entry of the one-hot: row g against a batch word, the word read signed. -/
def oh (g : Fin 1024) (w : BitVec 32) : EReal := if w.toInt = (g.val : Int) then 1 else 0

/-- For a row number below 1024, the 32-bit word of the row number equals a word exactly when the word, read signed,
    is the row number. -/
theorem ofNat_eq_iff_toInt (g : Fin 1024) (w : BitVec 32) : BitVec.ofNat 32 g.val = w ↔ w.toInt = (g.val : Int) := by
  have hg := g.isLt
  constructor
  · intro h
    have hmod : g.val % 2 ^ 32 = g.val := Nat.mod_eq_of_lt (by omega)
    rw [← h, BitVec.toInt_eq_toNat_cond, BitVec.toNat_ofNat, hmod, if_pos (by omega)]
  · intro h
    rw [← BitVec.ofInt_toInt (x := w), h]
    exact (BitVec.ofInt_natCast 32 g.val).symm

/-- The comparison bit, widened to a word and converted to a float: 1 where the words agree, 0 elsewhere. -/
theorem sitofp_extui_cmpi_eq (a w : BitVec 32) :
    FloatOps.sitofp (F := Ideal) .f32 ((IntOp.cmpi .eq a w).setWidth 32) = if a = w then 1 else 0 := by
  show ((((BitVec.ofBool (a == w)).setWidth 32).toInt : ℝ) : EReal) = _
  by_cases h : a = w
  · have hb : (a == w) = true := beq_iff_eq.mpr h
    have h1 : ((BitVec.ofBool true).setWidth 32).toInt = 1 := by decide
    rw [if_pos h, hb, h1, Int.cast_one, EReal.coe_one]
  · have hb : (a == w) = false := beq_eq_false_iff_ne.mpr h
    have h0 : ((BitVec.ofBool false).setWidth 32).toInt = 0 := by decide
    rw [if_neg h, hb, h0, Int.cast_zero, EReal.coe_zero]

theorem pay4_apply (b : Vec Ideal S1024 .i32) (g r : Fin 1024) : k1_pay4 (F := Ideal) b (ix2 g r) = oh g (b (ix1 r)) := by
  unfold Gen.k1_pay4
  rw [sitofp_apply, extui_apply]
  show FloatOps.sitofp (F := Ideal) .f32 ((IntOp.cmpi .eq (iota .tc S1024x1024 32 [0] iota_S1024x1024_d0_w32 (ix2 g r))
      (broadcastTo S1024x1024 (shapeCast S1x1024 (shapeCast S1x1024 (shapeCast S1024 b shapeCasts_S1024_S1024) shapeCasts_S1024_S1x1024)
        shapeCasts_S1x1024_S1x1024) broadcasts_S1x1024_S1024x1024 (ix2 g r))).setWidth 32) = _
  rw [iota_single_apply, broadcastTo_1b_ab_apply, shapeCast_self, shapeCast_a_1a_apply, shapeCast_self, sitofp_extui_cmpi_eq]
  show (if BitVec.ofNat 32 g.val = b (ix1 r) then (1 : EReal) else 0) = if (b (ix1 r)).toInt = (g.val : Int) then 1 else 0
  exact if_congr (ofNat_eq_iff_toInt g _) rfl rfl

/-! ## The sum accumulator's update: the one-hot times the activated block -/

/-- The left operand's row coordinate is the output's. -/
theorem pool_lhs_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide),
    dif_pos (show (0 : Fin S1024x1024.rank) ∈ dot_S1024x1024_S1024x64_S1024x64_1_0_0_1_n_n.lhsNonContracting by decide)]
  rfl
/-- The left operand's column coordinate is the contraction's. -/
theorem pool_lhs_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
/-- The right operand's row coordinate is the contraction's. -/
theorem pool_rhs_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
/-- The right operand's column coordinate is the output's. -/
theorem pool_rhs_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide),
    dif_pos (show (1 : Fin S1024x64.rank) ∈ dot_S1024x1024_S1024x64_S1024x64_1_0_0_1_n_n.rhsNonContracting by decide)]
  rfl

/-- The product of a [1024,1024] array with a [1024,64] block into a zero accumulator, read at (g, k): the sum over
    the 1024 shared coordinates of the entries' products. -/
theorem pool_matmul_apply (A : FVec Ideal S1024x1024 .bf16) (B : FVec Ideal S1024x64 .bf16) (g : Fin 1024) (k : Fin 64) :
    FloatOps.matmul dot_S1024x1024_S1024x64_S1024x64_1_0_0_1_n_n none A B (constant S1024x64 .f32 0x00000000#32) (ix2 g k)
      = ∑ r : Fin 1024, A (ix2 g r) * B (ix2 r k) := by
  rw [Ideal.matmul_constant_zero_apply,
    ← Equiv.sum_comp (contrEquiv1 dot_S1024x1024_S1024x64_S1024x64_1_0_0_1_n_n 1024 rfl rfl).symm]
  refine Finset.sum_congr rfl fun r _ => ?_
  have hr := contrEquiv1_symm_val dot_S1024x1024_S1024x64_S1024x64_1_0_0_1_n_n 1024 rfl rfl r
  have el : dot_S1024x1024_S1024x64_S1024x64_1_0_0_1_n_n.lhsIdx (ix2 g k)
      ((contrEquiv1 dot_S1024x1024_S1024x64_S1024x64_1_0_0_1_n_n 1024 rfl rfl).symm r) = ix2 g r :=
    funext fun a => Fin.ext (by
      match a with
      | ⟨0, _⟩ => exact pool_lhs_0 _ _
      | ⟨1, _⟩ => exact (pool_lhs_1 _ _).trans hr)
  have er : dot_S1024x1024_S1024x64_S1024x64_1_0_0_1_n_n.rhsIdx (ix2 g k)
      ((contrEquiv1 dot_S1024x1024_S1024x64_S1024x64_1_0_0_1_n_n 1024 rfl rfl).symm r) = ix2 r k :=
    funext fun a => Fin.ext (by
      match a with
      | ⟨0, _⟩ => exact (pool_rhs_0 _ _).trans hr
      | ⟨1, _⟩ => exact pool_rhs_1 _ _)
  rw [el, er]

/-- The activated block read at (r, k): the block plus the bias row, clamped below at zero. -/
theorem act_apply (x : Vec Ideal S1024x64 .f32) (cb : Vec Ideal S64 .f32) (r : Fin 1024) (k : Fin 64) :
    maximumf (F := Ideal) (addf (shapeCast S1024x64 x shapeCasts_S1024x64_S1024x64)
        (broadcastTo S1024x64 (shapeCast S1x64 cb shapeCasts_S64_S1x64) broadcasts_S1x64_S1024x64))
      (broadcast S1024x64 (Scalar.ofBits .f32 0x00000000#32)) (ix2 r k) = max (x (ix2 r k) + cb (ix1 k)) 0 := by
  rw [maximumf_apply, addf_apply, shapeCast_self, broadcastTo_1b_ab_apply, shapeCast_a_1a_apply, broadcast_apply]
  exact congrArg (max _) Ideal.ofBits_zero_f32

theorem pay5_apply (b : Vec Ideal S1024 .i32) (x : Vec Ideal S1024x64 .f32) (cb : Vec Ideal S64 .f32) (S : Vec Ideal S1024x64 .f32) (g : Fin 1024) (k : Fin 64) :
    k1_pay5 (F := Ideal) b x cb S (ix2 g k) = S (ix2 g k) + ∑ r : Fin 1024, oh g (b (ix1 r)) * max (x (ix2 r k) + cb (ix1 k)) 0 := by
  unfold Gen.k1_pay5
  rw [shapeCast_self, addf_apply]
  refine congrArg (S (ix2 g k) + ·) ?_
  refine (pool_matmul_apply _ _ g k).trans (Finset.sum_congr rfl fun r _ => ?_)
  rw [truncf_apply, truncf_apply, pay4_apply, act_apply]

/-! ## The count accumulator's update: the one-hot's row sums -/

theorem pay6_apply (b : Vec Ideal S1024 .i32) (C : Vec Ideal S1024x1 .f32) (g : Fin 1024) :
    k1_pay6 (F := Ideal) b C (ix2 g 0) = C (ix2 g 0) + ∑ r : Fin 1024, oh g (b (ix1 r)) := by
  unfold Gen.k1_pay6
  rw [shapeCast_self, addf_apply, shapeCast_a_a1_apply, rowSum_apply]
  exact congrArg (C (ix2 g 0) + ·) (Finset.sum_congr rfl fun r _ => pay4_apply b g r)

/-! ## The read-out: the mean of each graph's rows through the linear layer -/

/-- The left operand's row coordinate is the output's. -/
theorem lin_lhs_0 (i : S1024x10.Idx) (q : dot_S1024x64_S64x10_S1024x10_1_0_0_1_n_n.contr.Idx) :
    (dot_S1024x64_S64x10_S1024x10_1_0_0_1_n_n.lhsIdx i q 0).val = (i 0).val := by
  unfold DotDims.lhsIdx
  rw [dif_neg (show ¬(0 : Fin S1024x64.rank) ∈ dot_S1024x64_S64x10_S1024x10_1_0_0_1_n_n.lhsBatch by decide),
    dif_pos (show (0 : Fin S1024x64.rank) ∈ dot_S1024x64_S64x10_S1024x10_1_0_0_1_n_n.lhsNonContracting by decide)]
  rfl
/-- The left operand's column coordinate is the contraction's. -/
theorem lin_lhs_1 (i : S1024x10.Idx) (q : dot_S1024x64_S64x10_S1024x10_1_0_0_1_n_n.contr.Idx) :
    (dot_S1024x64_S64x10_S1024x10_1_0_0_1_n_n.lhsIdx i q 1).val = (q ⟨0, by decide⟩).val :=
  dot_S1024x64_S64x10_S1024x10_1_0_0_1_n_n.lhsIdx_val_of_single rfl i q
/-- The right operand's row coordinate is the contraction's. -/
theorem lin_rhs_0 (i : S1024x10.Idx) (q : dot_S1024x64_S64x10_S1024x10_1_0_0_1_n_n.contr.Idx) :
    (dot_S1024x64_S64x10_S1024x10_1_0_0_1_n_n.rhsIdx i q 0).val = (q ⟨0, by decide⟩).val :=
  dot_S1024x64_S64x10_S1024x10_1_0_0_1_n_n.rhsIdx_val_of_single rfl i q
/-- The right operand's column coordinate is the output's. -/
theorem lin_rhs_1 (i : S1024x10.Idx) (q : dot_S1024x64_S64x10_S1024x10_1_0_0_1_n_n.contr.Idx) :
    (dot_S1024x64_S64x10_S1024x10_1_0_0_1_n_n.rhsIdx i q 1).val = (i 1).val := by
  unfold DotDims.rhsIdx
  rw [dif_neg (show ¬(1 : Fin S64x10.rank) ∈ dot_S1024x64_S64x10_S1024x10_1_0_0_1_n_n.rhsBatch by decide),
    dif_pos (show (1 : Fin S64x10.rank) ∈ dot_S1024x64_S64x10_S1024x10_1_0_0_1_n_n.rhsNonContracting by decide)]
  rfl

/-- The product of a [1024,64] array with the [64,10] weights into a zero accumulator, read at (g, j): the sum over
    the 64 shared coordinates of the entries' products. -/
theorem lin_matmul_apply (A : FVec Ideal S1024x64 .bf16) (B : FVec Ideal S64x10 .bf16) (g : Fin 1024) (j : Fin 10) :
    FloatOps.matmul dot_S1024x64_S64x10_S1024x10_1_0_0_1_n_n none A B (constant S1024x10 .f32 0x00000000#32) (ix2 g j)
      = ∑ k : Fin 64, A (ix2 g k) * B (ix2 k j) := by
  rw [Ideal.matmul_constant_zero_apply,
    ← Equiv.sum_comp (contrEquiv1 dot_S1024x64_S64x10_S1024x10_1_0_0_1_n_n 64 rfl rfl).symm]
  refine Finset.sum_congr rfl fun k _ => ?_
  have hk := contrEquiv1_symm_val dot_S1024x64_S64x10_S1024x10_1_0_0_1_n_n 64 rfl rfl k
  have el : dot_S1024x64_S64x10_S1024x10_1_0_0_1_n_n.lhsIdx (ix2 g j)
      ((contrEquiv1 dot_S1024x64_S64x10_S1024x10_1_0_0_1_n_n 64 rfl rfl).symm k) = ix2 g k :=
    funext fun a => Fin.ext (by
      match a with
      | ⟨0, _⟩ => exact lin_lhs_0 _ _
      | ⟨1, _⟩ => exact (lin_lhs_1 _ _).trans hk)
  have er : dot_S1024x64_S64x10_S1024x10_1_0_0_1_n_n.rhsIdx (ix2 g j)
      ((contrEquiv1 dot_S1024x64_S64x10_S1024x10_1_0_0_1_n_n 64 rfl rfl).symm k) = ix2 k j :=
    funext fun a => Fin.ext (by
      match a with
      | ⟨0, _⟩ => exact (lin_rhs_0 _ _).trans hk
      | ⟨1, _⟩ => exact lin_rhs_1 _ _)
  rw [el, er]

/-- The mean read at (g, k): the summed row over the count column's entry of row g, the count clamped below at one. -/
theorem mean_apply (S : Vec Ideal S1024x64 .f32) (C : Vec Ideal S1024x1 .f32) (g : Fin 1024) (k : Fin 64) :
    divf (F := Ideal) S (broadcastTo S1024x64 (maximumf C (broadcast S1024x1 (Scalar.ofBits .f32 0x3F800000#32)))
      broadcasts_S1024x1_S1024x64) (ix2 g k) = Ideal.div (S (ix2 g k)) (max (C (ix2 g 0)) 1) := by
  rw [divf_apply, broadcastTo_a1_ab_apply, maximumf_apply, broadcast_apply]
  exact congrArg (fun t => Ideal.div (S (ix2 g k)) (max (C (ix2 g 0)) t)) Ideal.ofBits_one_f32

theorem pay1_apply (S : Vec Ideal S1024x64 .f32) (C : Vec Ideal S1024x1 .f32) (lw : Vec Ideal S64x10 .f32) (lb : Vec Ideal S10 .f32) (g : Fin 1024) (j : Fin 10) :
    k1_pay1 (F := Ideal) S C lw lb (ix2 g j) = (∑ k : Fin 64, Ideal.div (S (ix2 g k)) (max (C (ix2 g 0)) 1) * lw (ix2 k j)) + lb (ix1 j) := by
  unfold Gen.k1_pay1
  rw [addf_apply, broadcastTo_1b_ab_apply, shapeCast_a_1a_apply]
  refine congrArg (· + lb (ix1 j)) ?_
  refine (lin_matmul_apply _ _ g j).trans (Finset.sum_congr rfl fun k _ => ?_)
  rw [truncf_apply, truncf_apply, mean_apply]

end Cert.KernelIdeal.Pay

end
-- ==== Proof.Spec.lean ====
/-
  The forward pass as one function of the argument arrays, over the extended reals.

  h      = x · W                                   (dense transform, a sum over the 128 input features)
  raw    = aggRaw h edge                           (symmetric-normalised message passing: the degree count,
                                                    its inverse square root, the gather of source rows, the
                                                    scaling and the scatter-add at the targets, kept as the
                                                    one chain of host operations both programs apply)
  a      = max (raw + b) 0                         (bias and ReLU, row by row)
  S g k  = sum of a n k over the nodes n of graph g (a node belongs to graph g when its batch word, read
                                                    signed, is g; a word outside 0 … 1023 belongs to none)
  C g    = the number of nodes of graph g
  out    = (S g · / max (C g) 1) · W' + b'         (mean pooling, then the classifier)
-/
import proofs.«400008_j68461778698647_1_alg».proof.Proof.Gen.ReferenceIdeal
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx Cert.ReferenceIdeal
open Cert.ReferenceIdeal.Facts₀ Cert.ReferenceIdeal.Facts

section Chain

variable {F : FTy → Type} [FloatOps F]

/-- Message passing from the transformed features `h` and the edge list: every edge (row → col) carries
    `h[row] · dinv[row] · dinv[col]` to its target `col`, where `dinv` is the inverse square root of the
    in-degree (0 at an isolated node). Spelt as the host operations themselves, so that the two programs'
    terms meet it without any of it being opened. -/
def aggRaw (h : FVec F S100000x64 .f32) (edge : IVec S2x1000000 32) : FVec F S100000x64 .f32 :=
  Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 (shapeCast _ (extractStridedSlice S1x1000000 ![1, 0] edge slices_S2x1000000_S1x1000000_1_0) shapeCasts_S1x1000000_S1000000)) (mulf (Host.gather gather_S100000x64_S1000000x1_S1000000x64_1_0_n_n_0_1_164 h (broadcastInDim S1000000x1 ![0] bcast_S1000000_S1000000x1_0 (select (cmpi .slt (shapeCast _ (extractStridedSlice S1x1000000 ![0, 0] edge slices_S2x1000000_S1x1000000_0_0) shapeCasts_S1x1000000_S1000000) (broadcastInDim S1000000 ![] bcast_S_S1000000 (constantI S_ 32 0#32))) (addi (shapeCast _ (extractStridedSlice S1x1000000 ![0, 0] edge slices_S2x1000000_S1x1000000_0_0) shapeCasts_S1x1000000_S1000000) (broadcastInDim S1000000 ![] bcast_S_S1000000 (constantI S_ 32 100000#32))) (shapeCast _ (extractStridedSlice S1x1000000 ![0, 0] edge slices_S2x1000000_S1x1000000_0_0) shapeCasts_S1x1000000_S1000000)))) (broadcastInDim S1000000x64 ![0, 1] bcast_S1000000x1_S1000000x64_0_1 (broadcastInDim S1000000x1 ![0] bcast_S1000000_S1000000x1_0 (mulf (Host.gather gather_S100000_S1000000x1_S1000000_n_0_n_n_0_1_1 (select (cmpf (F := F) .ogt (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] edge slices_S2x1000000_S1x1000000_1_0) shapeCasts_S1x1000000_S1000000)) (broadcastInDim S1000000 ![] bcast_S_S1000000 (constant S_ .f32 0x3F800000#32))) (broadcastInDim S100000 ![] bcast_S_S100000 (constant S_ .f32 0x00000000#32))) (Host.rsqrt (maximumf (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] edge slices_S2x1000000_S1x1000000_1_0) shapeCasts_S1x1000000_S1000000)) (broadcastInDim S1000000 ![] bcast_S_S1000000 (constant S_ .f32 0x3F800000#32))) (broadcastInDim S100000 ![] bcast_S_S100000 (constant S_ .f32 0x3F800000#32)))) (broadcastInDim S100000 ![] bcast_S_S100000 (id (constant S_ .f32 0x00000000#32)))) (broadcastInDim S1000000x1 ![0] bcast_S1000000_S1000000x1_0 (select (cmpi .slt (shapeCast _ (extractStridedSlice S1x1000000 ![0, 0] edge slices_S2x1000000_S1x1000000_0_0) shapeCasts_S1x1000000_S1000000) (broadcastInDim S1000000 ![] bcast_S_S1000000 (constantI S_ 32 0#32))) (addi (shapeCast _ (extractStridedSlice S1x1000000 ![0, 0] edge slices_S2x1000000_S1x1000000_0_0) shapeCasts_S1x1000000_S1000000) (broadcastInDim S1000000 ![] bcast_S_S1000000 (constantI S_ 32 100000#32))) (shapeCast _ (extractStridedSlice S1x1000000 ![0, 0] edge slices_S2x1000000_S1x1000000_0_0) shapeCasts_S1x1000000_S1000000)))) (Host.gather gather_S100000_S1000000x1_S1000000_n_0_n_n_0_1_1 (select (cmpf (F := F) .ogt (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] edge slices_S2x1000000_S1x1000000_1_0) shapeCasts_S1x1000000_S1000000)) (broadcastInDim S1000000 ![] bcast_S_S1000000 (constant S_ .f32 0x3F800000#32))) (broadcastInDim S100000 ![] bcast_S_S100000 (constant S_ .f32 0x00000000#32))) (Host.rsqrt (maximumf (Host.scatterAdd scatter_S100000_S1000000x1_S1000000_n_0_0_1 (broadcastInDim S100000 ![] bcast_S_S100000 (constant S_ .f32 0x00000000#32)) (broadcastInDim S1000000x1 ![0] bcast_S1000000_S1000000x1_0 (shapeCast _ (extractStridedSlice S1x1000000 ![1, 0] edge slices_S2x1000000_S1x1000000_1_0) shapeCasts_S1x1000000_S1000000)) (broadcastInDim S1000000 ![] bcast_S_S1000000 (constant S_ .f32 0x3F800000#32))) (broadcastInDim S100000 ![] bcast_S_S100000 (constant S_ .f32 0x3F800000#32)))) (broadcastInDim S100000 ![] bcast_S_S100000 (id (constant S_ .f32 0x00000000#32)))) (broadcastInDim S1000000x1 ![0] bcast_S1000000_S1000000x1_0 (select (cmpi .slt (shapeCast _ (extractStridedSlice S1x1000000 ![1, 0] edge slices_S2x1000000_S1x1000000_1_0) shapeCasts_S1x1000000_S1000000) (broadcastInDim S1000000 ![] bcast_S_S1000000 (constantI S_ 32 0#32))) (addi (shapeCast _ (extractStridedSlice S1x1000000 ![1, 0] edge slices_S2x1000000_S1x1000000_1_0) shapeCasts_S1x1000000_S1000000) (broadcastInDim S1000000 ![] bcast_S_S1000000 (constantI S_ 32 100000#32))) (shapeCast _ (extractStridedSlice S1x1000000 ![1, 0] edge slices_S2x1000000_S1x1000000_1_0) shapeCasts_S1x1000000_S1000000))))))))

end Chain

/-- The dense transform: row `n` of `x` against column `k` of `w`. -/
def conv (x : FVec Ideal S100000x128 .f32) (w : FVec Ideal S128x64 .f32) : FVec Ideal S100000x64 .f32 :=
  fun i => ∑ j : Fin 128, x (ix2 (i 0) j) * w (ix2 j (i 1))

/-- Bias and ReLU. -/
def act (a : FVec Ideal S100000x64 .f32) (b : FVec Ideal S64 .f32) : FVec Ideal S100000x64 .f32 :=
  fun i => max (a i + b (ix1 (i 1))) 0

/-- Feature `k` summed over the nodes of graph `g`. -/
def pooledSum (a : FVec Ideal S100000x64 .f32) (batch : IVec S100000 32) (g : Fin 1024) (k : Fin 64) : EReal :=
  ∑ n : Fin 100000, if (batch (ix1 n)).toInt = (g.val : Int) then a (ix2 n k) else 0

/-- The number of nodes of graph `g`. -/
def pooledCnt (batch : IVec S100000 32) (g : Fin 1024) : EReal :=
  ∑ n : Fin 100000, if (batch (ix1 n)).toInt = (g.val : Int) then (1 : EReal) else 0

/-- Mean pooling and the classifier. -/
def logits (a : FVec Ideal S100000x64 .f32) (batch : IVec S100000 32) (lw : FVec Ideal S64x10 .f32)
    (lb : FVec Ideal S10 .f32) : FVec Ideal S1024x10 .f32 :=
  fun i => (∑ k : Fin 64, Ideal.div (pooledSum a batch (i 0) k) (max (pooledCnt batch (i 0)) 1) * lw (ix2 k (i 1)))
    + lb (ix1 (i 1))

/-- The whole forward pass. -/
def G (x : FVec Ideal S100000x128 .f32) (edge : IVec S2x1000000 32) (batch : IVec S100000 32)
    (w : FVec Ideal S128x64 .f32) (b : FVec Ideal S64 .f32) (lw : FVec Ideal S64x10 .f32) (lb : FVec Ideal S10 .f32) :
    FVec Ideal S1024x10 .f32 :=
  logits (act (aggRaw (F := Ideal) (conv x w) edge) b) batch lw lb

end Cert.Spec

end
-- ==== Proof.Between.lean ====
/-
  What the pooling region finds: the arrays between the two regions as functions of the launch arguments.

  The dense-transform region writes ten blocks of 10000 rows; block t is the product of rows 10000 t … 10000 t + 9999
  of x with the whole weight matrix, so the blocks together are x · W, index by index a sum over the 128 shared
  coordinates. The host operations between the regions gather those rows by edge source, scale them by the symmetric
  normalisation and add them up at the edge targets, then pad the result with 352 zero rows and the batch vector with
  352 words −1. No host operation writes an argument, so the bias, the classifier's weights and its bias reach the
  pooling region as launched.
-/
import proofs.«400008_j68461778698647_1_alg».proof.Proof.KernelRun
import proofs.«400008_j68461778698647_1_alg».proof.Proof.Payloads
import proofs.«400008_j68461778698647_1_alg».proof.Proof.Spec
import Idealize.ShloMosaic.Lib.Pipeline.Value
import Idealize.ShloMosaic.Lib.KernelVsHost

set_option maxRecDepth 16384

noncomputable section

namespace Cert.KernelIdeal.Hand

open Idealize.ShloMosaic Idealize.ShloMosaic.TcCoe Idealize.ShloMosaic.ValueIdx
open Idealize.ShloMosaic.Pipeline (Dat)
open Cert.KernelIdeal Cert.KernelIdeal.Gen
open scoped BigOperators

variable (m : (ℓ : Loc nD τ sig) → Buf (Elt Ideal) ℓ) (c : Dev nD)

/-- The launch arguments on core `c`. -/
abbrev argX : S100000x128.Idx → EReal := m ((c.tc : Thread nD τ).loc main_arg0)
abbrev argE : S2x1000000.Idx → BitVec 32 := m ((c.tc : Thread nD τ).loc main_arg1)
abbrev argB : S100000.Idx → BitVec 32 := m ((c.tc : Thread nD τ).loc main_arg2)
abbrev argW : S128x64.Idx → EReal := m ((c.tc : Thread nD τ).loc main_arg5)
abbrev argCB : S64.Idx → EReal := m ((c.tc : Thread nD τ).loc main_arg6)
abbrev argLW : S64x10.Idx → EReal := m ((c.tc : Thread nD τ).loc main_arg7)
abbrev argLB : S10.Idx → EReal := m ((c.tc : Thread nD τ).loc main_arg8)

namespace Between

theorem hz : (![0, 0] : Fin 2 → Nat) = fun _ => 0 := funext fun a => by fin_cases a <;> rfl

/-! ## The arguments as the regions find them: no stretch of host operations writes an argument -/

theorem vin0_arg0 : Vin0 (F := Ideal) m c main_arg0 = argX m c :=
  (V3_of m c main_arg0 (by decide)).trans <| (V2_of m c main_arg0 (by decide)).trans <| (V1_of m c main_arg0 (by decide)).trans rfl
theorem vin0_arg5 : Vin0 (F := Ideal) m c main_arg5 = argW m c :=
  (V3_of m c main_arg5 (by decide)).trans <| (V2_of m c main_arg5 (by decide)).trans <| (V1_of m c main_arg5 (by decide)).trans rfl

/-! ## The dense transform: ten blocks of 10000 rows cover the array -/

/-- The index maps over the grid: the rows of `x` and of the output move with the point, the weights stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What the body leaves in the output buffer, at an index: row `j 0` of the block of `x` against column `j 1` of the weights. -/
theorem convOut_apply (x0 : Vec Ideal S10000x128 .f32) (x1 : Vec Ideal S128x64 .f32) (j : S10000x64.Idx) :
    convOut x0 x1 j = ∑ q : Fin 128, x0 (ix2 (j 0) q) * x1 (ix2 q (j 1)) := by
  unfold convOut
  rw [View.canon_unit_zero hz]
  simp only [View.ld_unit_zero (S := S10000x128) hz, View.ld_unit_zero (S := S128x64) hz]
  exact (congrArg (k0_pay1 x0 x1) (eq_ix2 j)).trans (Pay.pay0_apply x0 x1 (j 0) (j 1))

section Blocks

variable (V : (c : Dev nD) → (b : Ref sig .tc) → Buf (Elt Ideal) ((c : Thread nD τ).loc b))

/-- Block `t` of `x` is rows `10000 t … 10000 t + 9999` of the array. -/
theorem iblk0_0_apply (t : Fin cfg0.N) (x : S10000x128.Idx) (k : S100000x128.Idx)
    (hk0 : (k 0).val = 10000 * t.val + (x 0).val) (hk1 : (k 1).val = (x 1).val) :
    (iblk0 V c 0 t : Vec Ideal S10000x128 .f32) x = (V c main_arg0 : S100000x128.Idx → EReal) k := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 10000 + 1 * (x 0).val = (k 0).val; rw [e0, hk0]; omega
  | ⟨1, _⟩ => show win0_0.index t 1 * 128 + 1 * (x 1).val = (k 1).val; rw [e1, hk1]; omega

/-- The weights' one block is the whole matrix. -/
theorem iblk0_1_apply (t : Fin cfg0.N) (x : S128x64.Idx) :
    (iblk0 V c 1 t : Vec Ideal S128x64 .f32) x = (V c main_arg5 : S128x64.Idx → EReal) x := by
  obtain ⟨-, -, e0, e1, -⟩ := idx_facts0 t
  unfold iblk0
  rw [View.read_apply]
  show V c main_arg5 _ = V c main_arg5 _
  congr 1
  funext a
  apply Fin.ext
  match a with
  | ⟨0, _⟩ => show win0_1.index t 0 * 128 + 1 * (x 0).val = (x 0).val; rw [e0]; omega
  | ⟨1, _⟩ => show win0_1.index t 1 * 64 + 1 * (x 1).val = (x 1).val; rw [e1]; omega

/-- What point `t` writes back is block `t` of the product of the two arrays as the region finds them. -/
theorem flushed0_eq (t : Fin cfg0.N) :
    (dat0 V c).flushed 2 t = ((cfg0.win 2).blk t).view.read (Elt Ideal) (Cert.Spec.conv (V c main_arg0) (V c main_arg5)) := by
  show (cfg0.win 2).cut (grid0.coords t) ((dat0 V c).after 2 t) = _
  rw [after0_2]
  obtain ⟨-, -, -, -, e0, e1⟩ := idx_facts0 t
  funext j
  show convOut (iblk0 V c 0 t) (iblk0 V c 1 t) j = Cert.Spec.conv (V c main_arg0) (V c main_arg5) (((cfg0.win 2).blk t).view.emb j)
  rw [convOut_apply]
  unfold Cert.Spec.conv
  refine Finset.sum_congr rfl fun q _ => ?_
  have h0 : ((((cfg0.win 2).blk t).view.emb j) 0).val = 10000 * t.val + (j 0).val := by
    show win0_2.index t 0 * 10000 + 1 * (j 0).val = _; rw [e0]; omega
  have h1 : ((((cfg0.win 2).blk t).view.emb j) 1).val = (j 1).val := by
    show win0_2.index t 1 * 64 + 1 * (j 1).val = _; rw [e1]; omega
  rw [iblk0_0_apply c V t (ix2 (j 0) q) (ix2 ((((cfg0.win 2).blk t).view.emb j) 0) q) h0 rfl, iblk0_1_apply c V t]
  congr 2
  exact Shape.idx_ext₂ rfl h1.symm

/-- An index of the array is in point `t`'s block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v29).slice (win0_2.rect t)).set ↔ _
  rw [View.set_slice_whole, Rect.mem_set_unit]
  exact Iff.rfl

/-- Row `r` is in the block of point `r / 10000`. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  refine ⟨⟨(i 0).val / 10000, by rw [show cfg0.N = 10 from N_0]; omega⟩, flush0_2 _, ?_⟩
  rw [mem_blk0]
  obtain ⟨-, -, -, -, e0, e1⟩ := idx_facts0 ⟨(i 0).val / 10000, by rw [show cfg0.N = 10 from N_0]; omega⟩
  intro a
  match a with
  | ⟨0, _⟩ => show win0_2.index _ 0 * 10000 ≤ (i 0).val ∧ (i 0).val < win0_2.index _ 0 * 10000 + 10000; rw [e0]; show (i 0).val / 10000 * 10000 ≤ _ ∧ _ < (i 0).val / 10000 * 10000 + 10000; omega
  | ⟨1, _⟩ => show win0_2.index _ 1 * 64 ≤ (i 1).val ∧ (i 1).val < win0_2.index _ 1 * 64 + 64; rw [e1]; omega

/-- The array the dense transform leaves, for any contents it is entered from. -/
theorem final0 : (dat0 V c).arrAt 2 cfg0.N = Cert.Spec.conv (V c main_arg0) (V c main_arg5) :=
  (dat0 V c).arrAt_eq_of_cover 2 (Cert.Spec.conv (V c main_arg0) (V c main_arg5)) (fun t _ => flushed0_eq c V t) (cover0)

end Blocks

end Between

open Between

/-! ## What reaches the pooling region unchanged -/

theorem vin1_arg6 : Vin1 (F := Ideal) m c main_arg6 = argCB m c :=
  (V8_of m (outsA m) c main_arg6 (by decide)).trans <| (V7_of m (outsA m) c main_arg6 (by decide)).trans <| (V6_of m (outsA m) c main_arg6 (by decide)).trans <| (V5_of m (outsA m) c main_arg6 (by decide)).trans <| (V4_of m (outsA m) c main_arg6 (by decide)).trans <| (V3_of m c main_arg6 (by decide)).trans <| (V2_of m c main_arg6 (by decide)).trans <| (V1_of m c main_arg6 (by decide)).trans rfl
theorem vin1_arg7 : Vin1 (F := Ideal) m c main_arg7 = argLW m c :=
  (V8_of m (outsA m) c main_arg7 (by decide)).trans <| (V7_of m (outsA m) c main_arg7 (by decide)).trans <| (V6_of m (outsA m) c main_arg7 (by decide)).trans <| (V5_of m (outsA m) c main_arg7 (by decide)).trans <| (V4_of m (outsA m) c main_arg7 (by decide)).trans <| (V3_of m c main_arg7 (by decide)).trans <| (V2_of m c main_arg7 (by decide)).trans <| (V1_of m c main_arg7 (by decide)).trans rfl
theorem vin1_arg8 : Vin1 (F := Ideal) m c main_arg8 = argLB m c :=
  (V8_of m (outsA m) c main_arg8 (by decide)).trans <| (V7_of m (outsA m) c main_arg8 (by decide)).trans <| (V6_of m (outsA m) c main_arg8 (by decide)).trans <| (V5_of m (outsA m) c main_arg8 (by decide)).trans <| (V4_of m (outsA m) c main_arg8 (by decide)).trans <| (V3_of m c main_arg8 (by decide)).trans <| (V2_of m c main_arg8 (by decide)).trans <| (V1_of m c main_arg8 (by decide)).trans rfl

/-- THE TRANSFORMED FEATURES: what the first region leaves is `x · W` of the launch arguments. -/
theorem convArr_eq : (convArr (F := Ideal) m c : S100000x64.Idx → EReal) = Cert.Spec.conv (argX m c) (argW m c) := by
  unfold convArr
  rw [final0 c (Vin0 m), vin0_arg0, vin0_arg5]

namespace Between

/-! ## The host operations between the regions, over any float semantics -/

section Host

variable {F : FTy → Type} [FloatOps F]

/-- The edge sources: row 0 of the edge list. -/
def eSrc (edge : IVec S2x1000000 32) : IVec S1000000 32 :=
  shapeCast _ (extractStridedSlice S1x1000000 ![0, 0] edge slices_S2x1000000_S1x1000000_0_0) shapeCasts_S1x1000000_S1000000
/-- The edge targets: row 1 of the edge list. -/
def eTgt (edge : IVec S2x1000000 32) : IVec S1000000 32 :=
  shapeCast _ (extractStridedSlice S1x1000000 ![1, 0] edge slices_S2x1000000_S1x1000000_1_0) shapeCasts_S1x1000000_S1000000
/-- A node index made non-negative (a negative one counts from the end) and set up as a column of indices. -/
def wrapIdx (v : IVec S1000000 32) : IVec S1000000x1 32 :=
  broadcastInDim S1000000x1 ![0] bcast_S1000000_S1000000x1_0
    (select (cmpi .slt v (broadcastInDim S1000000 ![] bcast_S_S1000000 (constantI S_ 32 0#32)))
      (addi v (broadcastInDim S1000000 ![] bcast_S_S1000000 (constantI S_ 32 100000#32))) v)
/-- The in-degree of every node: ones added up at the edge targets. -/
def deg (edge : IVec S2x1000000 32) : FVec F S100000 .f32 :=
  Host.scatterAdd scatter_S100000_S1000000x1_S1000000_n_0_0_1 (broadcastInDim S100000 ![] bcast_S_S100000 (constant S_ .f32 0x00000000#32))
    (broadcastInDim S1000000x1 ![0] bcast_S1000000_S1000000x1_0 (eTgt edge)) (broadcastInDim S1000000 ![] bcast_S_S1000000 (constant S_ .f32 0x3F800000#32))
/-- The inverse square root of the in-degree, 0 at an isolated node. -/
def dinv (edge : IVec S2x1000000 32) : FVec F S100000 .f32 :=
  select (cmpf (F := F) .ogt (deg edge) (broadcastInDim S100000 ![] bcast_S_S100000 (constant S_ .f32 0x00000000#32)))
    (Host.rsqrt (maximumf (deg edge) (broadcastInDim S100000 ![] bcast_S_S100000 (constant S_ .f32 0x3F800000#32))))
    (broadcastInDim S100000 ![] bcast_S_S100000 (id (constant S_ .f32 0x00000000#32)))
/-- The symmetric normalisation of every edge: the two end points' factors multiplied. -/
def enorm (edge : IVec S2x1000000 32) : FVec F S1000000 .f32 :=
  mulf (Host.gather gather_S100000_S1000000x1_S1000000_n_0_n_n_0_1_1 (dinv edge) (wrapIdx (eSrc edge)))
    (Host.gather gather_S100000_S1000000x1_S1000000_n_0_n_n_0_1_1 (dinv edge) (wrapIdx (eTgt edge)))
/-- Message passing as the kernel program's host operations spell it: the narrow rows gathered by source, widened,
    scaled and added up at the targets. -/
def aggK (h : FVec F S100000x64 .bf16) (edge : IVec S2x1000000 32) : FVec F S100000x64 .f32 :=
  Host.scatterAdd scatter_S100000x64_S1000000x1_S1000000x64_1_0_0_1 (broadcastInDim S100000x64 ![] bcast_S_S100000x64 (constant S_ .f32 0x00000000#32))
    (broadcastInDim S1000000x1 ![0] bcast_S1000000_S1000000x1_0 (eTgt edge))
    (mulf (extf .f32 (Host.gather gather_S100000x64_S1000000x1_S1000000x64_1_0_n_n_0_1_164 h (wrapIdx (eSrc edge))) bitsLt_bf16_f32)
      (broadcastInDim S1000000x64 ![0, 1] bcast_S1000000x1_S1000000x64_0_1 (broadcastInDim S1000000x1 ![0] bcast_S1000000_S1000000x1_0 (enorm edge))))

variable (Vg : Valuation τ sig (Elt F))

/-- The first stretch: the two rows of the edge list, the degree test and the inverse square root. -/
theorem stretch0_v1 : (StableHlo.after hostOps0 Vg (Proc.devRef .tc main_v1) : IVec S1000000 32) = eSrc (Vg (Proc.devRef .tc main_arg1)) := by
  after_results; rfl
theorem stretch0_v3 : (StableHlo.after hostOps0 Vg (Proc.devRef .tc main_v3) : IVec S1000000 32) = eTgt (Vg (Proc.devRef .tc main_arg1)) := by
  after_results; rfl
theorem stretch0_v9 : (StableHlo.after hostOps0 Vg (Proc.devRef .tc main_v9) : IVec S100000 1)
    = cmpf (F := F) .ogt (deg (Vg (Proc.devRef .tc main_arg1))) (broadcastInDim S100000 ![] bcast_S_S100000 (constant S_ .f32 0x00000000#32)) := by
  after_results; rfl
theorem stretch0_v12 : (StableHlo.after hostOps0 Vg (Proc.devRef .tc main_v12) : FVec F S100000 .f32)
    = Host.rsqrt (maximumf (deg (Vg (Proc.devRef .tc main_arg1))) (broadcastInDim S100000 ![] bcast_S_S100000 (constant S_ .f32 0x3F800000#32))) := by
  after_results; rfl
theorem stretch0_cst3 : (StableHlo.after hostOps0 Vg (Proc.devRef .tc main_cst_3) : FVec F S_ .f32) = constant S_ .f32 0x00000000#32 := by
  after_results

end Host

section Host2

variable {F : FTy → Type} [FloatOps F] (Vg : Valuation τ sig (Elt F))

/-- The second stretch: the factor kept where the degree is positive, 0 elsewhere. -/
theorem stretch1_v13 : (StableHlo.after hostOps0_1 Vg (Proc.devRef .tc main_v13) : FVec F S100000 .f32)
    = select (Vg (Proc.devRef .tc main_v9) : IVec S100000 1) (Vg (Proc.devRef .tc main_v12) : FVec F S100000 .f32)
        (broadcastInDim S100000 ![] bcast_S_S100000 (id (Vg (Proc.devRef .tc main_cst_3) : FVec F S_ .f32))) := by
  after_results; rfl

set_option maxHeartbeats 2000000 in
/-- The third stretch: every edge's normalisation from the two end points' factors. -/
theorem stretch2_v28 : (StableHlo.after hostOps0_2 Vg (Proc.devRef .tc main_v28) : FVec F S1000000 .f32)
    = mulf (Host.gather gather_S100000_S1000000x1_S1000000_n_0_n_n_0_1_1 (Vg (Proc.devRef .tc main_v13) : FVec F S100000 .f32) (wrapIdx (Vg (Proc.devRef .tc main_v1) : IVec S1000000 32)))
        (Host.gather gather_S100000_S1000000x1_S1000000_n_0_n_n_0_1_1 (Vg (Proc.devRef .tc main_v13) : FVec F S100000 .f32) (wrapIdx (Vg (Proc.devRef .tc main_v3) : IVec S1000000 32))) := by
  after_results_simp; rfl

set_option maxHeartbeats 2000000 in
/-- The stretch between the regions: the gathered rows widened, scaled and added up at the targets. -/
theorem stretch3_v43 : (StableHlo.after hostOps1 Vg (Proc.devRef .tc main_v43) : FVec F S100000x64 .f32)
    = Host.scatterAdd scatter_S100000x64_S1000000x1_S1000000x64_1_0_0_1 (broadcastInDim S100000x64 ![] bcast_S_S100000x64 (constant S_ .f32 0x00000000#32))
        (broadcastInDim S1000000x1 ![0] bcast_S1000000_S1000000x1_0 (Vg (Proc.devRef .tc main_v3) : IVec S1000000 32))
        (mulf (extf .f32 (Host.gather gather_S100000x64_S1000000x1_S1000000x64_1_0_n_n_0_1_164 (Vg (Proc.devRef .tc main_v29) : FVec F S100000x64 .bf16) (wrapIdx (Vg (Proc.devRef .tc main_v1) : IVec S1000000 32))) bitsLt_bf16_f32)
          (broadcastInDim S1000000x64 ![0, 1] bcast_S1000000x1_S1000000x64_0_1 (broadcastInDim S1000000x1 ![0] bcast_S1000000_S1000000x1_0 (Vg (Proc.devRef .tc main_v28) : FVec F S1000000 .f32)))) := by
  after_results_simp; rfl
theorem stretch3_c10 : (StableHlo.after hostOps1 Vg (Proc.devRef .tc main_c_10) : IVec S_ 32) = constantI S_ 32 0#32 := by
  after_results

/-- The two paddings. -/
theorem stretch4_v44 : (StableHlo.after hostOps1_1 Vg (Proc.devRef .tc main_v44) : FVec F S100352x64 .f32)
    = pad S100352x64 ![0, 0] ![352, 0] ![0, 0] (Vg (Proc.devRef .tc main_v43) : FVec F S100000x64 .f32) (sitofp (F := F) .f32 (Vg (Proc.devRef .tc main_c_10) : IVec S_ 32)) pads_S100000x64_S100352x64_03520_000 h_S_ := by
  after_results; rfl
theorem stretch5_c11 : (StableHlo.after hostOps1_2 Vg (Proc.devRef .tc main_c_11) : IVec S_ 32) = constantI S_ 32 4294967295#32 := by
  after_results
theorem stretch6_v45 : (StableHlo.after hostOps1_3 Vg (Proc.devRef .tc main_v45) : IVec S100352 32)
    = pad S100352 ![0] ![352] ![0] (Vg (Proc.devRef .tc main_arg2) : IVec S100000 32) (id (Vg (Proc.devRef .tc main_c_11) : IVec S_ 32)) pads_S100000_S100352_03520 h_S_ := by
  after_results; rfl

end Host2

/-! ## The chain closed over the launch arguments -/

/-- What the dense transform leaves is what the next stretch gathers from. -/
theorem v4_v29 : V4 m (outsA m) c main_v29 = convArr m c := by
  simp only [V4, Function.update_self, outsA_v29]

theorem v1_v1 : (V1 m c (Proc.devRef .tc main_v1) : IVec S1000000 32) = eSrc (argE m c) := stretch0_v1 (V0 m c)
theorem v1_v3 : (V1 m c (Proc.devRef .tc main_v3) : IVec S1000000 32) = eTgt (argE m c) := stretch0_v3 (V0 m c)

/-- The normalisation factor of every node, from the edge list. -/
theorem v2_v13 : (V2 m c (Proc.devRef .tc main_v13) : FVec Ideal S100000 .f32) = dinv (F := Ideal) (argE m c) := by
  have e9 : (V1 m c (Proc.devRef .tc main_v9) : IVec S100000 1) = _ := stretch0_v9 (V0 m c)
  have e12 : (V1 m c (Proc.devRef .tc main_v12) : FVec Ideal S100000 .f32) = _ := stretch0_v12 (V0 m c)
  have e3 : (V1 m c (Proc.devRef .tc main_cst_3) : FVec Ideal S_ .f32) = _ := stretch0_cst3 (V0 m c)
  refine (stretch1_v13 (V1 m c)).trans ?_
  rw [e9, e12, e3]
  rfl

/-- The normalisation of every edge, from the edge list. -/
theorem v3_v28 : (V3 m c (Proc.devRef .tc main_v28) : FVec Ideal S1000000 .f32) = enorm (F := Ideal) (argE m c) := by
  have e1 : (V2 m c (Proc.devRef .tc main_v1) : IVec S1000000 32) = eSrc (argE m c) := (V2_of m c main_v1 (by decide)).trans (v1_v1 m c)
  have e3 : (V2 m c (Proc.devRef .tc main_v3) : IVec S1000000 32) = eTgt (argE m c) := (V2_of m c main_v3 (by decide)).trans (v1_v3 m c)
  refine (stretch2_v28 (V2 m c)).trans ?_
  rw [e1, e3, v2_v13 m c]
  rfl

/-- The message-passing result, from the transformed rows and the edge list. -/
theorem v5_v43 : (V5 m (outsA m) c (Proc.devRef .tc main_v43) : FVec Ideal S100000x64 .f32) = aggK (F := Ideal) (convArr m c) (argE m c) := by
  have e1 : (V4 m (outsA m) c (Proc.devRef .tc main_v1) : IVec S1000000 32) = eSrc (argE m c) :=
    (V4_of m (outsA m) c main_v1 (by decide)).trans <| (V3_of m c main_v1 (by decide)).trans <| (V2_of m c main_v1 (by decide)).trans (v1_v1 m c)
  have e3 : (V4 m (outsA m) c (Proc.devRef .tc main_v3) : IVec S1000000 32) = eTgt (argE m c) :=
    (V4_of m (outsA m) c main_v3 (by decide)).trans <| (V3_of m c main_v3 (by decide)).trans <| (V2_of m c main_v3 (by decide)).trans (v1_v3 m c)
  have e28 : (V4 m (outsA m) c (Proc.devRef .tc main_v28) : FVec Ideal S1000000 .f32) = enorm (F := Ideal) (argE m c) :=
    (V4_of m (outsA m) c main_v28 (by decide)).trans (v3_v28 m c)
  have e29 : (V4 m (outsA m) c (Proc.devRef .tc main_v29) : FVec Ideal S100000x64 .bf16) = convArr m c := v4_v29 m c
  refine (stretch3_v43 (V4 m (outsA m) c)).trans ?_
  rw [e1, e3, e28, e29]
  rfl

/-- At the ideal values the two spellings of message passing agree: widening a narrow float changes nothing, and the
    two programs' dimension records have equal fields. -/
theorem aggK_eq (h : FVec Ideal S100000x64 .bf16) (edge : IVec S2x1000000 32) :
    aggK (F := Ideal) h edge = Cert.Spec.aggRaw (F := Ideal) h edge := by
  unfold aggK enorm dinv deg wrapIdx eSrc eTgt Cert.Spec.aggRaw
  rfl
/-- The padded message-passing result as the pooling region finds it. -/
theorem vin1_v44 : (Vin1 (F := Ideal) m c main_v44 : FVec Ideal S100352x64 .f32)
    = pad S100352x64 ![0, 0] ![352, 0] ![0, 0] (Cert.Spec.aggRaw (F := Ideal) (Cert.Spec.conv (argX m c) (argW m c)) (argE m c))
        (sitofp (F := Ideal) .f32 (constantI S_ 32 0#32)) pads_S100000x64_S100352x64_03520_000 h_S_ := by
  have e43 := v5_v43 m c
  rw [aggK_eq, convArr_eq] at e43
  have e10 : (V5 m (outsA m) c (Proc.devRef .tc main_c_10) : IVec S_ 32) = constantI S_ 32 0#32 := stretch3_c10 (V4 m (outsA m) c)
  refine ((V8_of m (outsA m) c main_v44 (by decide)).trans <| (V7_of m (outsA m) c main_v44 (by decide)).trans (stretch4_v44 (V5 m (outsA m) c))).trans ?_
  rw [e43, e10]

/-- The padded batch vector as the pooling region finds it. -/
theorem vin1_v45 : (Vin1 (F := Ideal) m c main_v45 : IVec S100352 32)
    = pad S100352 ![0] ![352] ![0] (argB m c) (id (constantI S_ 32 4294967295#32 : IVec S_ 32)) pads_S100000_S100352_03520 h_S_ := by
  have e2 : (V7 m (outsA m) c (Proc.devRef .tc main_arg2) : IVec S100000 32) = argB m c :=
    (V7_of m (outsA m) c main_arg2 (by decide)).trans <| (V6_of m (outsA m) c main_arg2 (by decide)).trans <| (V5_of m (outsA m) c main_arg2 (by decide)).trans <| (V4_of m (outsA m) c main_arg2 (by decide)).trans <| (V3_of m c main_arg2 (by decide)).trans <| (V2_of m c main_arg2 (by decide)).trans <| (V1_of m c main_arg2 (by decide)).trans rfl
  have e11 : (V7 m (outsA m) c (Proc.devRef .tc main_c_11) : IVec S_ 32) = constantI S_ 32 4294967295#32 := stretch5_c11 (V6 m (outsA m) c)
  refine (stretch6_v45 (V7 m (outsA m) c)).trans ?_
  rw [e2, e11]

end Between
/-- THE AGGREGATED FEATURES: the first 100000 rows are the message-passing result of `x · W`, the 352 rows after them zero. -/
theorem vin1_agg (n : Fin 100352) (k : Fin 64) :
    (Vin1 (F := Ideal) m c main_v44 : S100352x64.Idx → EReal) (ix2 n k)
      = if h : n.val < 100000 then Cert.Spec.aggRaw (F := Ideal) (Cert.Spec.conv (argX m c) (argW m c)) (argE m c) (ix2 ⟨n.val, h⟩ k) else 0 := by
  rw [vin1_v44]
  split
  · rename_i h
    refine pad_apply_of_inside _ _ _ _ _ _ _ (ix2 n k) (ix2 ⟨n.val, h⟩ k) fun a => ?_
    match a with
    | ⟨0, _⟩ => show n.val = 0 + n.val * (0 + 1); omega
    | ⟨1, _⟩ => show k.val = 0 + k.val * (0 + 1); omega
  · rename_i h
    refine (pad_apply_of_not_inside _ _ _ _ _ _ _ (ix2 n k) (0 : Fin 2) ?_).trans ?_
    · show ¬(0 ≤ n.val ∧ (n.val - 0) % (0 + 1) = 0 ∧ (n.val - 0) / (0 + 1) < 100000)
      omega
    · show (((0#32 : BitVec 32).toInt : ℝ) : EReal) = 0
      rw [show (0#32 : BitVec 32).toInt = 0 from by decide]
      simp

/-- THE BATCH VECTOR: the first 100000 words are the launch argument's, the 352 after them −1. -/
theorem vin1_batch (n : Fin 100352) :
    (Vin1 (F := Ideal) m c main_v45 : S100352.Idx → BitVec 32) (ix1 n)
      = if h : n.val < 100000 then argB m c (ix1 ⟨n.val, h⟩) else 4294967295#32 := by
  rw [vin1_v45]
  split
  · rename_i h
    refine pad_apply_of_inside _ _ _ _ _ _ _ (ix1 n) (ix1 ⟨n.val, h⟩) fun a => ?_
    match a with
    | ⟨0, _⟩ => show n.val = 0 + n.val * (0 + 1); omega
  · rename_i h
    refine (pad_apply_of_not_inside _ _ _ _ _ _ _ (ix1 n) (0 : Fin 1) ?_).trans rfl
    show ¬(0 ≤ n.val ∧ (n.val - 0) % (0 + 1) = 0 ∧ (n.val - 0) / (0 + 1) < 100000)
    omega

end Cert.KernelIdeal.Hand

end
-- ==== Proof.PoolFold.lean ====
/-
  Sums over the 100352 padded rows taken 1024 rows at a time.

  An accumulator that starts from zero, adds one block's contribution at each of the 98 grid points and is read after
  the last one holds the sum of all 98 contributions. When a contribution is itself a sum over the 1024 rows of its
  block, the total is a sum over all 98 · 1024 = 100352 padded rows; when the rows from 100000 on contribute nothing,
  it is the sum over the 100000 real rows. A zero-or-one factor times a term is the term under the factor's condition.
  All of it holds in any additive commutative monoid; the extended reals are one (their sums reorder freely, and
  0 · x = 0, 1 · x = x hold for every extended real, infinite ones included).
-/
import Mathlib.Algebra.BigOperators.Fin
import Mathlib.Data.EReal.Operations

namespace Cert.KernelIdeal.Hand

open scoped BigOperators

/-- Row `r` of block `t`: row 1024 · t + r of the padded array. -/
def padRow (t : Fin 98) (r : Fin 1024) : Fin 100352 := ⟨1024 * t.val + r.val, by omega⟩

/-- A real row as a row of the padded array. -/
def realRow (n : Fin 100000) : Fin 100352 := ⟨n.val, by omega⟩

theorem padRow_val (t : Fin 98) (r : Fin 1024) : (padRow t r).val = 1024 * t.val + r.val := rfl
theorem realRow_val (n : Fin 100000) : (realRow n).val = n.val := rfl

section Monoid
variable {M : Type*} [AddCommMonoid M]

/-- The accumulator after the last of the 98 steps is the sum of the 98 terms: by induction, after step `n` it is
    the sum of the terms 0 … n. -/
theorem fold_eq_sum (S : (n : ℕ) → n < 98 → M) (b : Fin 98 → M)
    (h0 : ∀ h : 0 < 98, S 0 h = 0 + b ⟨0, h⟩)
    (hs : ∀ (n : ℕ) (h : n + 1 < 98), S (n + 1) h = S n (Nat.lt_of_succ_lt h) + b ⟨n + 1, h⟩) (h : 97 < 98) :
    S 97 h = ∑ t : Fin 98, b t := by
  have key : ∀ (n : ℕ) (h : n < 98), S n h = ∑ t : Fin (n + 1), b ⟨t.val, by omega⟩ := by
    intro n
    induction n with
    | zero => intro h; rw [h0, zero_add, Fin.sum_univ_one]; rfl
    | succ n ih => intro h; rw [hs n h, ih, Fin.sum_univ_castSucc (n := n + 1)]; rfl
  rw [key 97 h]

/-- The double sum over blocks and rows inside a block is the sum over all padded rows: (t, r) ↦ 1024 · t + r is a
    bijection from 98 × 1024 onto the 100352 rows. -/
theorem sum_padRow (f : Fin 100352 → M) : ∑ t : Fin 98, ∑ r : Fin 1024, f (padRow t r) = ∑ i : Fin 100352, f i := by
  rw [← Fintype.sum_prod_type']
  refine Fintype.sum_equiv (finProdFinEquiv (m := 98) (n := 1024)) _ _ fun p => ?_
  refine congrArg f (Fin.ext ?_)
  show 1024 * p.1.val + p.2.val = p.2.val + 1024 * p.1.val
  exact Nat.add_comm _ _

/-- Rows that contribute nothing from 100000 on: the sum over the padded rows is the sum over the real ones. -/
theorem sum_realRow (f : Fin 100352 → M) (hz : ∀ i : Fin 100352, 100000 ≤ i.val → f i = 0) :
    ∑ i : Fin 100352, f i = ∑ n : Fin 100000, f (realRow n) := by
  have htail : ∑ i : Fin 352, f (Fin.natAdd 100000 i) = 0 :=
    Finset.sum_eq_zero fun i _ => hz _ (by show 100000 ≤ 100000 + i.val; omega)
  rw [Fin.sum_univ_add (a := 100000) (b := 352) f, htail, add_zero]
  rfl

end Monoid

/-- A zero-or-one factor times a term is the term under the factor's condition. -/
theorem ite_one_zero_mul (c : Prop) [Decidable c] (a : EReal) :
    (if c then (1 : EReal) else 0) * a = if c then a else 0 := by
  by_cases h : c
  · rw [if_pos h, if_pos h, one_mul]
  · rw [if_neg h, if_neg h, zero_mul]

end Cert.KernelIdeal.Hand
-- ==== Proof.PoolBlocks.lean ====
/-
  The pooling region's blocks and accumulators read off the arrays the region finds.

  Block t of the padded activations' input holds the rows 1024·t … 1024·t + 1023; the point's batch words are the same
  rows of the padded batch vector; the bias, the classifier's matrix and its bias are whole arrays at every point. With
  the payloads read at an index, the two accumulators after the last point are sums over all 100352 padded rows, and
  the output array, written back once after the last point, is the read-out of those sums.
-/
import proofs.«400008_j68461778698647_1_alg».proof.Proof.PoolRegion
import proofs.«400008_j68461778698647_1_alg».proof.Proof.Payloads
import proofs.«400008_j68461778698647_1_alg».proof.Proof.PoolFold
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen Cert.KernelIdeal.Pay
open scoped BigOperators

variable (V : (c : Dev nD) → (b : Ref sig .tc) → Buf (Elt Ideal) ((c : Thread nD τ).loc b))

/-! ## The blocks -/

/-- A grid point as a block number below 98. -/
def pt (t : Fin cfg1.N) : Fin 98 := ⟨t.val, lt_of_lt_of_eq (show t.val < grid1.N from t.isLt) N_1⟩

/-- The printed index maps, decided over the grid: the activations' block index is the point, every other window's is
    zero, and the batch words' offset is 1024 times the point. -/
theorem idx_facts1 : ∀ t : Fin cfg1.N, win1_0.index t (0 : Fin 2) = t.val ∧ win1_0.index t (1 : Fin 2) = 0
    ∧ win1_1.index t (0 : Fin 1) = 0 ∧ win1_2.index t (0 : Fin 1) = 0
    ∧ win1_3.index t (0 : Fin 2) = 0 ∧ win1_3.index t (1 : Fin 2) = 0 ∧ win1_4.index t (0 : Fin 1) = 0
    ∧ win1_5.index t (0 : Fin 2) = 0 ∧ win1_5.index t (1 : Fin 2) = 0
    ∧ k1_off1 (grid1.coords t) (0 : Fin 1) = 1024 * t.val :=
  (by decide +kernel : ∀ t : Fin grid1.N, _)

/-- Block t of the activations' input, read at (r, k): row 1024·t + r of the array. -/
theorem aggBlk_apply (c : Dev nD) (t : Fin cfg1.N) (r : Fin 1024) (k : Fin 64) :
    aggBlk V c t (ix2 r k) = (V c main_v44 : S100352x64.Idx → EReal) (ix2 (padRow (pt t) r) k) := by
  show (V c main_v44 : S100352x64.Idx → EReal) (((cfg1.win 0).blk t).view.emb (ix2 r k)) = _
  refine congrArg _ (funext fun a => Fin.ext ?_)
  obtain ⟨e0, e1, -⟩ := idx_facts1 t
  match a with
  | ⟨0, _⟩ => show win1_0.index t (0 : Fin 2) * 1024 + 1 * r.val = 1024 * t.val + r.val; omega
  | ⟨1, _⟩ => show win1_0.index t (1 : Fin 2) * 64 + 1 * k.val = k.val; omega

/-- The point's batch words, read at r: word 1024·t + r of the padded batch vector. -/
theorem batchAt_apply (c : Dev nD) (t : Fin cfg1.N) (r : Fin 1024) :
    batchAt V c t (ix1 r) = (V c main_v45 : S100352.Idx → BitVec 32) (ix1 (padRow (pt t) r)) := by
  show (V c main_v45 : S100352.Idx → BitVec 32) (((cfg1.win 1).blk t).view.emb ((batchRect (grid1.coords t)).emb (ix1 r))) = _
  refine congrArg _ (funext fun a => Fin.ext ?_)
  obtain ⟨-, -, e2, -, -, -, -, -, -, e9⟩ := idx_facts1 t
  match a with
  | ⟨0, _⟩ =>
    show win1_1.index t (0 : Fin 1) * 100352 + 1 * (k1_off1 (grid1.coords t) (0 : Fin 1) + 1 * r.val) = 1024 * t.val + r.val
    omega

/-- The bias block is the whole bias array, at every point. -/
theorem biasBlk_eq (c : Dev nD) (t : Fin cfg1.N) : biasBlk V c t = (V c main_arg6 : S64.Idx → EReal) := by
  funext j
  show (V c main_arg6 : S64.Idx → EReal) (((cfg1.win 2).blk t).view.emb j) = _
  refine congrArg _ (funext fun a => Fin.ext ?_)
  obtain ⟨-, -, -, e3, -⟩ := idx_facts1 t
  match a with
  | ⟨0, _⟩ => show win1_2.index t (0 : Fin 1) * 64 + 1 * (j 0).val = (j 0).val; omega

/-- The classifier's matrix block is the whole matrix, at every point. -/
theorem linWBlk_eq (c : Dev nD) (t : Fin cfg1.N) : linWBlk V c t = (V c main_arg7 : S64x10.Idx → EReal) := by
  funext j
  show (V c main_arg7 : S64x10.Idx → EReal) (((cfg1.win 3).blk t).view.emb j) = _
  refine congrArg _ (funext fun a => Fin.ext ?_)
  obtain ⟨-, -, -, -, e4, e5, -⟩ := idx_facts1 t
  match a with
  | ⟨0, _⟩ => show win1_3.index t (0 : Fin 2) * 64 + 1 * (j 0).val = (j 0).val; omega
  | ⟨1, _⟩ => show win1_3.index t (1 : Fin 2) * 10 + 1 * (j 1).val = (j 1).val; omega

/-- The classifier's bias block is the whole bias, at every point. -/
theorem linBBlk_eq (c : Dev nD) (t : Fin cfg1.N) : linBBlk V c t = (V c main_arg8 : S10.Idx → EReal) := by
  funext j
  show (V c main_arg8 : S10.Idx → EReal) (((cfg1.win 4).blk t).view.emb j) = _
  refine congrArg _ (funext fun a => Fin.ext ?_)
  obtain ⟨-, -, -, -, -, -, e6, -⟩ := idx_facts1 t
  match a with
  | ⟨0, _⟩ => show win1_4.index t (0 : Fin 1) * 10 + 1 * (j 0).val = (j 0).val; omega

/-! ## The accumulators -/

/-- Entry (i, k) of the padded input with the bias added, clamped below at zero. -/
def actAt (a : S100352x64.Idx → EReal) (cb : S64.Idx → EReal) (k : Fin 64) (i : Fin 100352) : EReal :=
  max (a (ix2 i k) + cb (ix1 k)) 0

/-- Row i's contribution to entry (g, k) of the sum accumulator: the activated entry (i, k), counted when row i's
    batch word, read signed, is g. -/
def sumTerm (bw : S100352.Idx → BitVec 32) (a : S100352x64.Idx → EReal) (cb : S64.Idx → EReal)
    (g : Fin 1024) (k : Fin 64) (i : Fin 100352) : EReal :=
  oh g (bw (ix1 i)) * actAt a cb k i

/-- Row i's contribution to entry g of the count accumulator: one when row i's batch word, read signed, is g. -/
def cntTerm (bw : S100352.Idx → BitVec 32) (g : Fin 1024) (i : Fin 100352) : EReal :=
  oh g (bw (ix1 i))

theorem lt98 {n : ℕ} (h : n < 98) : n < cfg1.N := lt_of_lt_of_eq h N_1.symm

/-- The sum accumulator after the last point, at (g, k): the contributions of all 100352 padded rows. -/
theorem acc_sum_apply (c : Dev nD) (g : Fin 1024) (k : Fin 64) :
    (accAt V c 97 lt97).1 (ix2 g k) = ∑ i : Fin 100352, sumTerm (V c main_v45) (V c main_v44) (V c main_arg6) g k i := by
  rw [← sum_padRow]
  refine fold_eq_sum (fun n h => (accAt V c n (lt98 h)).1 (ix2 g k))
    (fun t => ∑ r : Fin 1024, sumTerm (V c main_v45) (V c main_v44) (V c main_arg6) g k (padRow t r)) ?_ ?_ (by decide)
  · intro h
    show (accAt V c 0 (lt98 h)).1 (ix2 g k) = _
    rw [accAt]; dsimp only; rw [pay5_apply, pay2_apply]
    refine congrArg (0 + ·) (Finset.sum_congr rfl fun r _ => ?_)
    rw [batchAt_apply, aggBlk_apply, biasBlk_eq]
    rfl
  · intro n h
    show (accAt V c (n + 1) (lt98 h)).1 (ix2 g k) = (accAt V c n (lt98 (Nat.lt_of_succ_lt h))).1 (ix2 g k) + _
    rw [accAt]; dsimp only; rw [pay5_apply]
    refine congrArg (_ + ·) (Finset.sum_congr rfl fun r _ => ?_)
    rw [batchAt_apply, aggBlk_apply, biasBlk_eq]
    rfl

/-- The count accumulator after the last point, at g: the contributions of all 100352 padded rows. -/
theorem acc_cnt_apply (c : Dev nD) (g : Fin 1024) :
    (accAt V c 97 lt97).2 (ix2 g 0) = ∑ i : Fin 100352, cntTerm (V c main_v45) g i := by
  rw [← sum_padRow]
  refine fold_eq_sum (fun n h => (accAt V c n (lt98 h)).2 (ix2 g 0))
    (fun t => ∑ r : Fin 1024, cntTerm (V c main_v45) g (padRow t r)) ?_ ?_ (by decide)
  · intro h
    show (accAt V c 0 (lt98 h)).2 (ix2 g 0) = _
    rw [accAt]; dsimp only; rw [pay6_apply, pay3_apply]
    refine congrArg (0 + ·) (Finset.sum_congr rfl fun r _ => ?_)
    rw [batchAt_apply]
    rfl
  · intro n h
    show (accAt V c (n + 1) (lt98 h)).2 (ix2 g 0) = (accAt V c n (lt98 (Nat.lt_of_succ_lt h))).2 (ix2 g 0) + _
    rw [accAt]; dsimp only; rw [pay6_apply]
    refine congrArg (_ + ·) (Finset.sum_congr rfl fun r _ => ?_)
    rw [batchAt_apply]
    rfl

/-! ## The output array -/

/-- The output's one block is the whole array: every index is in it, at every point. -/
theorem mem_blk5 (t : Fin cfg1.N) (i : S1024x10.Idx) : i ∈ ((cfg1.win 5).blk t).view.set := by
  show i ∈ ((View.whole main_v46).slice (win1_5.rect t)).set
  rw [View.set_slice_whole, Rect.mem_set_unit]
  obtain ⟨-, -, -, -, -, -, -, e7, e8, -⟩ := idx_facts1 t
  intro a
  match a with
  | ⟨0, _⟩ =>
    show win1_5.index t (0 : Fin 2) * 1024 ≤ (i 0).val ∧ (i 0).val < win1_5.index t (0 : Fin 2) * 1024 + 1024
    have h0 : (i 0).val < 1024 := (i 0).isLt; omega
  | ⟨1, _⟩ =>
    show win1_5.index t (1 : Fin 2) * 10 ≤ (i 1).val ∧ (i 1).val < win1_5.index t (1 : Fin 2) * 10 + 10
    have h1 : (i 1).val < 10 := (i 1).isLt; omega

/-- What a point writes back is its block of the logits: the whole array. -/
theorem flushed5_eq (c : Dev nD) (t : Fin cfg1.N) :
    (dat1 V c).flushed 5 t = ((cfg1.win 5).blk t).view.read (Elt Ideal) (logitsBlk V c) := by
  show (cfg1.win 5).cut (grid1.coords t) ((dat1 V c).after 5 t) = _
  rw [after1_5]
  funext j
  show logitsBlk V c ((cfg1.win 5).xinj (grid1.coords t) j) = logitsBlk V c (((cfg1.win 5).blk t).view.emb j)
  refine congrArg _ (funext fun a => Fin.ext ?_)
  obtain ⟨-, -, -, -, -, -, -, e7, e8, -⟩ := idx_facts1 t
  match a with
  | ⟨0, _⟩ => show (j 0).val = win1_5.index t (0 : Fin 2) * 1024 + 1 * (j 0).val; omega
  | ⟨1, _⟩ => show (j 1).val = win1_5.index t (1 : Fin 2) * 10 + 1 * (j 1).val; omega

/-- The output array after the run: the logits the last point stores, written back once. -/
theorem arrAt5_eq (c : Dev nD) : (dat1 V c).arrAt 5 cfg1.N = logitsBlk V c :=
  Dat.arrAt_eq_of_cover (dat1 V c) 5 (logitsBlk V c) (fun t _ => flushed5_eq V c t)
    (fun i => ⟨tLast, (flush1_5 tLast).mpr (by decide), mem_blk5 tLast i⟩)

end Cert.KernelIdeal.Hand

end
-- ==== Proof.PoolValue.lean ====
/-
  The pooling region's result is the specification.

  The output array holds the read-out of the two accumulators after the last point. The accumulators are sums over
  the 100352 padded rows of the arrays the region finds; those arrays are the aggregated rows and the batch words on
  the 100000 real rows, and zeros and the word −1 on the padding. The word −1, read signed, is no graph's number, so
  the padding contributes nothing and the sums are the specification's sums over the real rows; the read-out is then
  the specification's mean pooling and classifier, entry by entry.
-/
import proofs.«400008_j68461778698647_1_alg».proof.Proof.KernelRun
import proofs.«400008_j68461778698647_1_alg».proof.Proof.Payloads
import proofs.«400008_j68461778698647_1_alg».proof.Proof.Between
import proofs.«400008_j68461778698647_1_alg».proof.Proof.Spec
import proofs.«400008_j68461778698647_1_alg».proof.Proof.PoolFold
import proofs.«400008_j68461778698647_1_alg».proof.Proof.PoolBlocks
import Idealize.ShloMosaic.Lib.ValueIdx

set_option maxRecDepth 16384

noncomputable section

namespace Cert.KernelIdeal.Hand

open Idealize.ShloMosaic Idealize.ShloMosaic.TcCoe Idealize.ShloMosaic.ValueIdx
open Cert.KernelIdeal Cert.KernelIdeal.Gen Cert.KernelIdeal.Pay
open scoped BigOperators

/-! ## The padding drops out -/

/-- The padding word, read signed, is −1: no graph's number. -/
theorem oh_pad (g : Fin 1024) : oh g 4294967295#32 = 0 := by
  have h1 : (4294967295#32 : BitVec 32).toInt = -1 := by decide
  unfold oh
  rw [if_neg]
  rw [h1]
  omega

/-- A sum over the padded rows of "row i belongs to graph g" times a value, when the rows from 100000 on carry the
    padding word: the sum over the real rows of the value under the condition. -/
theorem sum_oh_mul (bw : Fin 100352 → BitVec 32) (a : Fin 100352 → EReal) (B : Fin 100000 → BitVec 32)
    (x : Fin 100000 → EReal) (hB : ∀ n : Fin 100000, bw (realRow n) = B n) (hx : ∀ n : Fin 100000, a (realRow n) = x n)
    (hpad : ∀ i : Fin 100352, 100000 ≤ i.val → bw i = 4294967295#32) (g : Fin 1024) :
    ∑ i : Fin 100352, oh g (bw i) * a i = ∑ n : Fin 100000, if (B n).toInt = (g.val : Int) then x n else 0 := by
  rw [sum_realRow _ (fun i hi => by rw [hpad i hi, oh_pad, zero_mul])]
  refine Finset.sum_congr rfl fun n _ => ?_
  rw [hB, hx]
  exact ite_one_zero_mul _ _

/-- The same for the bare count. -/
theorem sum_oh (bw : Fin 100352 → BitVec 32) (B : Fin 100000 → BitVec 32)
    (hB : ∀ n : Fin 100000, bw (realRow n) = B n)
    (hpad : ∀ i : Fin 100352, 100000 ≤ i.val → bw i = 4294967295#32) (g : Fin 1024) :
    ∑ i : Fin 100352, oh g (bw i) = ∑ n : Fin 100000, if (B n).toInt = (g.val : Int) then (1 : EReal) else 0 := by
  rw [sum_realRow _ (fun i hi => by rw [hpad i hi, oh_pad])]
  refine Finset.sum_congr rfl fun n _ => ?_
  rw [hB]
  rfl

/-! ## The accumulators are the specification's sums -/

variable (m : (ℓ : Loc nD τ sig) → Buf (Elt Ideal) ℓ) (c : Dev nD)

/-- The activations the specification pools: the aggregated rows with the bias added, clamped below at zero. -/
abbrev specAct : Cert.ReferenceIdeal.S100000x64.Idx → EReal :=
  Cert.Spec.act (Cert.Spec.aggRaw (F := Ideal) (Cert.Spec.conv (argX m c) (argW m c)) (argE m c)) (argCB m c)

theorem vin1_batch_real (n : Fin 100000) :
    (Vin1 (F := Ideal) m c main_v45 : S100352.Idx → BitVec 32) (ix1 (realRow n)) = argB m c (ix1 n) := by
  rw [vin1_batch, dif_pos (show (realRow n).val < 100000 from n.isLt)]
  rfl

theorem vin1_batch_pad (i : Fin 100352) (hi : 100000 ≤ i.val) :
    (Vin1 (F := Ideal) m c main_v45 : S100352.Idx → BitVec 32) (ix1 i) = 4294967295#32 := by
  rw [vin1_batch, dif_neg (by omega)]

theorem pooled_sum (g : Fin 1024) (k : Fin 64) :
    ∑ i : Fin 100352, sumTerm (Vin1 (F := Ideal) m c main_v45) (Vin1 (F := Ideal) m c main_v44) (Vin1 (F := Ideal) m c main_arg6) g k i
      = Cert.Spec.pooledSum (specAct m c) (argB m c) g k := by
  unfold Cert.Spec.pooledSum
  refine sum_oh_mul (fun i => (Vin1 (F := Ideal) m c main_v45 : S100352.Idx → BitVec 32) (ix1 i))
    (actAt (Vin1 (F := Ideal) m c main_v44) (Vin1 (F := Ideal) m c main_arg6) k)
    (fun n => argB m c (ix1 n)) (fun n => specAct m c (ix2 n k))
    (vin1_batch_real m c) ?_ (vin1_batch_pad m c) g
  intro n
  unfold actAt
  rw [vin1_agg, dif_pos (show (realRow n).val < 100000 from n.isLt), vin1_arg6]
  rfl

theorem pooled_cnt (g : Fin 1024) :
    ∑ i : Fin 100352, cntTerm (Vin1 (F := Ideal) m c main_v45) g i = Cert.Spec.pooledCnt (argB m c) g := by
  unfold Cert.Spec.pooledCnt
  exact sum_oh (fun i => (Vin1 (F := Ideal) m c main_v45 : S100352.Idx → BitVec 32) (ix1 i))
    (fun n => argB m c (ix1 n)) (vin1_batch_real m c) (vin1_batch_pad m c) g

/-! ## The output array -/

/-- What the pooling region leaves in its output array is the specification's logits of the launch arguments. -/
theorem poolArr_eq (m : (ℓ : Loc nD τ sig) → Buf (Elt Ideal) ℓ) (c : Dev nD) :
    (poolArr (F := Ideal) m c : S1024x10.Idx → EReal)
      = Cert.Spec.G (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) := by
  show (poolArr (F := Ideal) m c : S1024x10.Idx → EReal)
    = Cert.Spec.logits (specAct m c) (argB m c) (argLW m c) (argLB m c)
  unfold poolArr
  rw [arrAt5_eq]
  funext i
  obtain ⟨g, j, rfl⟩ : ∃ g j, i = ix2 g j := ⟨i 0, i 1, eq_ix2 i⟩
  have hS : ∀ k : Fin 64, (accAt (Vin1 (F := Ideal) m) c 97 lt97).1 (ix2 g k)
      = Cert.Spec.pooledSum (specAct m c) (argB m c) g k := fun k => by rw [acc_sum_apply, pooled_sum]
  have hC : (accAt (Vin1 (F := Ideal) m) c 97 lt97).2 (ix2 g 0) = Cert.Spec.pooledCnt (argB m c) g := by
    rw [acc_cnt_apply, pooled_cnt]
  unfold logitsBlk Cert.Spec.logits
  rw [pay1_apply, linWBlk_eq, linBBlk_eq, vin1_arg7, vin1_arg8, hC]
  simp only [hS]

end Cert.KernelIdeal.Hand

end
-- ==== Proof.RefValue.lean ====
/-
  The reference program's result is the specification `Cert.Spec.G` of its arguments, at the ideal instance.

  Two of the reference's host operations are accumulating scatters keyed by the batch vector. At the ideal instance such
  a scatter is exact: element `i` of the result is the operand at `i` plus the sum of the updates whose result index is
  `i`, where the result index of an update is its start word, read signed and not clamped, plus its window coordinate,
  and an update that leaves the operand is dropped. For the pooled sums, update `(n, k')` lands on `(g, k)` exactly when
  the batch word of row `n`, read signed, is `g` and `k' = k`; for the counts, update `n` lands on `g` exactly when
  that word is `g`. A word outside `0 … 1023` equals no `g`, so its row is counted nowhere on either side. Hence

      sums   (g, k) = 0 + ∑ n, if batch n = g then a (n, k) else 0
      counts  g     = 0 + ∑ n, if batch n = g then 1 else 0

  which are the specification's `pooledSum` and `pooledCnt`. The rest is read index by index: the bias add through two
  broadcasts and the maximum against a broadcast zero are `act`; the two matrix products are sums over the contracted
  axis, `conv` and the classifier; the divisor is the count, at least one, carried along the feature axis. The
  message-passing chain from the edge list is never opened: it is the same term on both sides, applied to the dense
  transform's stage, which is `conv`.
-/
import proofs.«400008_j68461778698647_1_alg».proof.Proof.RefRead
import proofs.«400008_j68461778698647_1_alg».proof.Proof.Spec
import Idealize.ShloMosaic.PureOps.Ideal
import Idealize.ShloMosaic.PureOps.Ideal.Laws
import Idealize.ShloMosaic.PureOps.Dims
import Idealize.ShloMosaic.Lib.ValueIdx
import Idealize.ShloMosaic.Lib.ValueIdxRank1
import Idealize.ShloMosaic.Lib.IdealHost

noncomputable section

namespace Cert.RefValue

open Idealize.ShloMosaic Idealize.ShloMosaic.ValueIdx Cert.ReferenceIdeal

/-- The record of the sums scatter reads the start of update `(n, k)` at row `n` of the index column. -/
theorem sums_siIdx (j : S100000x64.Idx) (c : Fin scatter_S1024x64_S100000x1_S100000x64_1_0_0_1.scatterDimsToOperandDims.length) :
    scatter_S1024x64_S100000x1_S100000x64_1_0_0_1.siIdx j c = ix2 (j 0) 0 := by
  funext b
  match b with
  | ⟨0, _⟩ => rfl
  | ⟨1, _⟩ =>
    apply Fin.ext
    have hc : c.val < 1 := c.isLt
    show c.val = 0
    omega

/-- On the row axis the window of update `(n, k)` starts at the index word of row `n`, read signed. -/
theorem sums_start0 (j : S100000x64.Idx) (idx : IVec S100000x1 32) :
    scatter_S1024x64_S100000x1_S100000x64_1_0_0_1.start j idx 0 = (idx (ix2 (j 0) 0)).toInt := by
  unfold ScatterDims.start
  have h : (0 : Fin S1024x64.rank) ∈ scatter_S1024x64_S100000x1_S100000x64_1_0_0_1.scatterDimsToOperandDims := by
    show (0 : Fin 2) ∈ ([0] : List (Fin 2)); decide
  rw [dif_pos h, sums_siIdx]
  rfl

/-- The feature axis is not named by the index vector: the window starts at zero there. -/
theorem sums_start1 (j : S100000x64.Idx) (idx : IVec S100000x1 32) :
    scatter_S1024x64_S100000x1_S100000x64_1_0_0_1.start j idx 1 = 0 := by
  unfold ScatterDims.start
  have h : ¬ (1 : Fin S1024x64.rank) ∈ scatter_S1024x64_S100000x1_S100000x64_1_0_0_1.scatterDimsToOperandDims := by
    show ¬ (1 : Fin 2) ∈ ([0] : List (Fin 2)); decide
  rw [dif_neg h]

/-- The row axis is an inserted axis: no window coordinate. -/
theorem sums_window0 (j : S100000x64.Idx) :
    scatter_S1024x64_S100000x1_S100000x64_1_0_0_1.window j 0 = 0 := by
  unfold ScatterDims.window
  have h : ¬ (0 : Fin S1024x64.rank) ∈ scatter_S1024x64_S100000x1_S100000x64_1_0_0_1.sKept := by
    show ¬ (0 : Fin 2) ∈ ([1] : List (Fin 2)); decide
  rw [dif_neg h]

/-- On the feature axis the window coordinate of update `(n, k)` is `k`. -/
theorem sums_window1 (j : S100000x64.Idx) :
    scatter_S1024x64_S100000x1_S100000x64_1_0_0_1.window j 1 = (j 1).val := by
  unfold ScatterDims.window
  have h : (1 : Fin S1024x64.rank) ∈ scatter_S1024x64_S100000x1_S100000x64_1_0_0_1.sKept := by
    show (1 : Fin 2) ∈ ([1] : List (Fin 2)); decide
  rw [dif_pos h]
  rfl

/-- Where update `(n, k')` of the sums scatter lands: at `(g, k)` exactly when the index word of row `n`,
    read signed, is `g` and `k' = k`. -/
theorem sums_resultIdx_iff (idx : IVec S100000x1 32) (j : S100000x64.Idx) (g : Fin 1024) (k : Fin 64) :
    scatter_S1024x64_S100000x1_S100000x64_1_0_0_1.resultIdx? j idx = some (ix2 g k)
      ↔ ((idx (ix2 (j 0) 0)).toInt = (g.val : Int) ∧ j 1 = k) := by
  unfold ScatterDims.resultIdx?
  constructor
  · intro h
    split at h
    · rename_i hb
      have h' := Option.some.inj h
      have e0 := congrArg (fun f => (f 0).val) h'
      have e1 := congrArg (fun f => (f 1).val) h'
      simp only [sums_start0, sums_start1, sums_window0, sums_window1] at e0 e1
      have b0 := hb 0
      rw [sums_start0, sums_window0] at b0
      refine ⟨?_, Fin.ext ?_⟩
      · have e0' : ((idx (ix2 (j 0) 0)).toInt + ((0 : Nat) : Int)).toNat = g.val := e0
        omega
      · have e1' : (0 + ((j 1).val : Int)).toNat = k.val := e1
        omega
    · exact absurd h (by simp)
  · rintro ⟨h0, h1⟩
    have hb : ∀ a : Fin S1024x64.rank, 0 ≤ scatter_S1024x64_S100000x1_S100000x64_1_0_0_1.start j idx a + scatter_S1024x64_S100000x1_S100000x64_1_0_0_1.window j a ∧ scatter_S1024x64_S100000x1_S100000x64_1_0_0_1.start j idx a + scatter_S1024x64_S100000x1_S100000x64_1_0_0_1.window j a < S1024x64.size a := by
      intro a
      match a with
      | ⟨0, _⟩ =>
        show 0 ≤ scatter_S1024x64_S100000x1_S100000x64_1_0_0_1.start j idx 0 + scatter_S1024x64_S100000x1_S100000x64_1_0_0_1.window j 0 ∧ scatter_S1024x64_S100000x1_S100000x64_1_0_0_1.start j idx 0 + scatter_S1024x64_S100000x1_S100000x64_1_0_0_1.window j 0 < ((1024 : Nat) : Int)
        rw [sums_start0, sums_window0, h0]
        have := g.isLt
        omega
      | ⟨1, _⟩ =>
        show 0 ≤ scatter_S1024x64_S100000x1_S100000x64_1_0_0_1.start j idx 1 + scatter_S1024x64_S100000x1_S100000x64_1_0_0_1.window j 1 ∧ scatter_S1024x64_S100000x1_S100000x64_1_0_0_1.start j idx 1 + scatter_S1024x64_S100000x1_S100000x64_1_0_0_1.window j 1 < ((64 : Nat) : Int)
        rw [sums_start1, sums_window1]
        have h64 : (j 1).val < 64 := (j 1).isLt
        omega
    rw [dif_pos hb]
    congr 1
    funext a
    match a with
    | ⟨0, _⟩ =>
      apply Fin.ext
      show (scatter_S1024x64_S100000x1_S100000x64_1_0_0_1.start j idx 0 + scatter_S1024x64_S100000x1_S100000x64_1_0_0_1.window j 0).toNat = g.val
      rw [sums_start0, sums_window0, h0]
      omega
    | ⟨1, _⟩ =>
      apply Fin.ext
      show (scatter_S1024x64_S100000x1_S100000x64_1_0_0_1.start j idx 1 + scatter_S1024x64_S100000x1_S100000x64_1_0_0_1.window j 1).toNat = k.val
      rw [sums_start1, sums_window1, ← h1]
      omega

/-- The sums scatter at the ideal instance, read at `(g, k)`: the operand there plus feature `k` of every update row
    whose index word, read signed, is `g`. -/
theorem sums_scatter_apply (x : S1024x64.Idx → EReal) (idx : IVec S100000x1 32) (upd : S100000x64.Idx → EReal)
    (g : Fin 1024) (k : Fin 64) :
    Ideal.hostScatterAdd scatter_S1024x64_S100000x1_S100000x64_1_0_0_1 x idx upd (ix2 g k)
      = x (ix2 g k) + ∑ n : Fin 100000, if (idx (ix2 n 0)).toInt = (g.val : Int) then upd (ix2 n k) else 0 := by
  unfold Ideal.hostScatterAdd
  refine congrArg (fun t => x (ix2 g k) + t) ?_
  rw [Finset.sum_filter, sum_idx2]
  refine Finset.sum_congr rfl fun n _ => ?_
  have hP : ∀ b : Fin 64, (scatter_S1024x64_S100000x1_S100000x64_1_0_0_1.resultIdx? (ix2 n b) idx = some (ix2 g k))
      ↔ ((idx (ix2 n 0)).toInt = (g.val : Int) ∧ b = k) := fun b => sums_resultIdx_iff idx (ix2 n b) g k
  rw [Finset.sum_congr rfl (fun b _ => if_congr (hP b) rfl rfl)]
  by_cases hn : (idx (ix2 n 0)).toInt = (g.val : Int)
  · simp only [hn, true_and, if_true]
    rw [Finset.sum_ite_eq' Finset.univ k (fun b => upd (ix2 n b)), if_pos (Finset.mem_univ k)]
  · simp only [hn, false_and, if_false]
    exact Finset.sum_const_zero

/-- The record of the counts scatter reads the start of update `n` at row `n` of the index column. -/
theorem cnt_siIdx (j : S100000.Idx) (c : Fin scatter_S1024_S100000x1_S100000_n_0_0_1.scatterDimsToOperandDims.length) :
    scatter_S1024_S100000x1_S100000_n_0_0_1.siIdx j c = ix2 (j 0) 0 := by
  funext b
  match b with
  | ⟨0, _⟩ => rfl
  | ⟨1, _⟩ =>
    apply Fin.ext
    have hc : c.val < 1 := c.isLt
    show c.val = 0
    omega

/-- The window of update `n` starts at the index word of row `n`, read signed. -/
theorem cnt_start0 (j : S100000.Idx) (idx : IVec S100000x1 32) :
    scatter_S1024_S100000x1_S100000_n_0_0_1.start j idx 0 = (idx (ix2 (j 0) 0)).toInt := by
  unfold ScatterDims.start
  have h : (0 : Fin S1024.rank) ∈ scatter_S1024_S100000x1_S100000_n_0_0_1.scatterDimsToOperandDims := by
    show (0 : Fin 1) ∈ ([0] : List (Fin 1)); decide
  rw [dif_pos h, cnt_siIdx]
  rfl

/-- The one axis of the counts is an inserted axis: no window coordinate. -/
theorem cnt_window0 (j : S100000.Idx) :
    scatter_S1024_S100000x1_S100000_n_0_0_1.window j 0 = 0 := by
  unfold ScatterDims.window
  have h : ¬ (0 : Fin S1024.rank) ∈ scatter_S1024_S100000x1_S100000_n_0_0_1.sKept := by
    show ¬ (0 : Fin 1) ∈ ([] : List (Fin 1)); decide
  rw [dif_neg h]

/-- Where update `n` of the counts scatter lands: at `g` exactly when the index word of row `n`, read signed, is `g`. -/
theorem cnt_resultIdx_iff (idx : IVec S100000x1 32) (j : S100000.Idx) (g : Fin 1024) :
    scatter_S1024_S100000x1_S100000_n_0_0_1.resultIdx? j idx = some (ix1 g)
      ↔ (idx (ix2 (j 0) 0)).toInt = (g.val : Int) := by
  unfold ScatterDims.resultIdx?
  constructor
  · intro h
    split at h
    · rename_i hb
      have h' := Option.some.inj h
      have e0 := congrArg (fun f => (f 0).val) h'
      simp only [cnt_start0, cnt_window0] at e0
      have b0 := hb 0
      rw [cnt_start0, cnt_window0] at b0
      have e0' : ((idx (ix2 (j 0) 0)).toInt + ((0 : Nat) : Int)).toNat = g.val := e0
      omega
    · exact absurd h (by simp)
  · intro h0
    have hb : ∀ a : Fin S1024.rank, 0 ≤ scatter_S1024_S100000x1_S100000_n_0_0_1.start j idx a + scatter_S1024_S100000x1_S100000_n_0_0_1.window j a ∧ scatter_S1024_S100000x1_S100000_n_0_0_1.start j idx a + scatter_S1024_S100000x1_S100000_n_0_0_1.window j a < S1024.size a := by
      intro a
      match a with
      | ⟨0, _⟩ =>
        show 0 ≤ scatter_S1024_S100000x1_S100000_n_0_0_1.start j idx 0 + scatter_S1024_S100000x1_S100000_n_0_0_1.window j 0 ∧ scatter_S1024_S100000x1_S100000_n_0_0_1.start j idx 0 + scatter_S1024_S100000x1_S100000_n_0_0_1.window j 0 < ((1024 : Nat) : Int)
        rw [cnt_start0, cnt_window0, h0]
        have := g.isLt
        omega
    rw [dif_pos hb]
    refine congrArg some ?_
    funext a
    match a with
    | ⟨0, _⟩ =>
      apply Fin.ext
      show (scatter_S1024_S100000x1_S100000_n_0_0_1.start j idx 0 + scatter_S1024_S100000x1_S100000_n_0_0_1.window j 0).toNat = g.val
      rw [cnt_start0, cnt_window0, h0]
      omega

/-- The counts scatter at the ideal instance, read at `g`: the operand there plus every update whose index word,
    read signed, is `g`. -/
theorem cnt_scatter_apply (x : S1024.Idx → EReal) (idx : IVec S100000x1 32) (upd : S100000.Idx → EReal) (g : Fin 1024) :
    Ideal.hostScatterAdd scatter_S1024_S100000x1_S100000_n_0_0_1 x idx upd (ix1 g)
      = x (ix1 g) + ∑ n : Fin 100000, if (idx (ix2 n 0)).toInt = (g.val : Int) then upd (ix1 n) else 0 := by
  unfold Ideal.hostScatterAdd
  refine congrArg (fun t => x (ix1 g) + t) ?_
  rw [Finset.sum_filter, ← Equiv.sum_comp (idxEquiv1 (n := 100000)).symm]
  refine Finset.sum_congr rfl fun n _ => ?_
  exact if_congr (cnt_resultIdx_iff idx (ix1 n) g) rfl rfl

open Cert.ReferenceIdeal.ReadP

/-- The dense transform's stage is the specification's `conv`. -/
theorem conv_eq (x0 : FVec Ideal S100000x128 .f32) (x5 : FVec Ideal S128x64 .f32) :
    val_main_v29 (F := Ideal) x0 x5 = Cert.Spec.conv x0 x5 := by
  funext i
  rw [val_main_v29_apply]
  unfold Cert.Spec.conv
  refine Finset.sum_congr rfl fun k _ => ?_
  have el : lidx_main_v29 i k = ix2 (i 0) k := funext fun a => Fin.ext (by match a with | ⟨0, _⟩ => rfl | ⟨1, _⟩ => rfl)
  have er : ridx_main_v29 i k = ix2 k (i 1) := funext fun a => Fin.ext (by match a with | ⟨0, _⟩ => rfl | ⟨1, _⟩ => rfl)
  rw [el, er]
  rfl

/-- The message-passing stage is the specification's chain of host operations, applied to the dense transform's stage. -/
theorem agg_eq_raw (x0 : FVec Ideal S100000x128 .f32) (x1 : IVec S2x1000000 32) (x5 : FVec Ideal S128x64 .f32) :
    val_main_v42 (F := Ideal) x0 x1 x5 = Cert.Spec.aggRaw (F := Ideal) (val_main_v29 (F := Ideal) x0 x5) x1 := by
  rfl

/-- … and with the dense transform's stage replaced by `conv` inside the chain. -/
theorem agg_eq (x0 : FVec Ideal S100000x128 .f32) (x1 : IVec S2x1000000 32) (x5 : FVec Ideal S128x64 .f32) :
    val_main_v42 (F := Ideal) x0 x1 x5 = Cert.Spec.aggRaw (F := Ideal) (Cert.Spec.conv x0 x5) x1 := by
  rw [agg_eq_raw, conv_eq]

/-- Bias and ReLU at an index: the stage after the rectifier is the specification's `act` of the message-passing result. -/
theorem act_apply (x0 : FVec Ideal S100000x128 .f32) (x1 : IVec S2x1000000 32) (x5 : FVec Ideal S128x64 .f32)
    (x6 : FVec Ideal S64 .f32) (n : Fin 100000) (k : Fin 64) :
    val_main_v46 (F := Ideal) x0 x1 x5 x6 (ix2 n k)
      = Cert.Spec.act (Cert.Spec.aggRaw (F := Ideal) (Cert.Spec.conv x0 x5) x1) x6 (ix2 n k) := by
  have e : idx_main_v43 (idx_main_v44 (ix2 n k)) = ix1 k :=
    funext fun a => Fin.ext (by match a with | ⟨0, _⟩ => rfl)
  rw [val_main_v46_apply, val_main_v45_apply, val_main_call1_v0_apply, val_main_call1_cst_apply, val_main_v44_apply,
    val_main_v43_apply, agg_eq, e]
  simp only [Ideal.maximumf_def, Ideal.addf_def, Ideal.ofBits_def, Ideal.ofBits_zero_f32]
  rfl

/-- The pooled sums: the batch scatter of the activations from a zero operand. -/
theorem sum_apply (x0 : FVec Ideal S100000x128 .f32) (x1 : IVec S2x1000000 32) (x2 : IVec S100000 32)
    (x5 : FVec Ideal S128x64 .f32) (x6 : FVec Ideal S64 .f32) (g : Fin 1024) (k : Fin 64) :
    val_main_v49 (F := Ideal) x0 x1 x2 x5 x6 (ix2 g k)
      = Cert.Spec.pooledSum (Cert.Spec.act (Cert.Spec.aggRaw (F := Ideal) (Cert.Spec.conv x0 x5) x1) x6) x2 g k := by
  unfold val_main_v49
  show Ideal.hostScatterAdd scatter_S1024x64_S100000x1_S100000x64_1_0_0_1 (val_main_v47 (F := Ideal))
    (val_main_v48 (F := Ideal) x2) (val_main_v46 (F := Ideal) x0 x1 x5 x6) (ix2 g k) = _
  rw [sums_scatter_apply, val_main_v47_apply, val_main_cst_10_apply]
  simp only [Ideal.ofBits_def, Ideal.ofBits_zero_f32, zero_add]
  unfold Cert.Spec.pooledSum
  refine Finset.sum_congr rfl fun n _ => ?_
  have e : idx_main_v48 (ix2 n (0 : Fin 1)) = ix1 n := funext fun a => Fin.ext (by match a with | ⟨0, _⟩ => rfl)
  rw [val_main_v48_apply, e, act_apply]

/-- The pooled counts: the batch scatter of ones from a zero operand. -/
theorem cnt_apply (x2 : IVec S100000 32) (g : Fin 1024) :
    val_main_v53 (F := Ideal) x2 (ix1 g) = Cert.Spec.pooledCnt x2 g := by
  unfold val_main_v53
  show Ideal.hostScatterAdd scatter_S1024_S100000x1_S100000_n_0_0_1 (val_main_v51 (F := Ideal))
    (val_main_v52 (F := Ideal) x2) (val_main_v50 (F := Ideal)) (ix1 g) = _
  rw [cnt_scatter_apply, val_main_v51_apply, val_main_cst_12_apply]
  simp only [Ideal.ofBits_def, Ideal.ofBits_zero_f32, zero_add]
  unfold Cert.Spec.pooledCnt
  refine Finset.sum_congr rfl fun n _ => ?_
  have e : idx_main_v52 (ix2 n (0 : Fin 1)) = ix1 n := funext fun a => Fin.ext (by match a with | ⟨0, _⟩ => rfl)
  rw [val_main_v52_apply, e, val_main_v50_apply, val_main_cst_11_apply]
  simp only [Ideal.ofBits_def, Ideal.ofBits_one_f32]

/-- The divisor: the count, at least one, carried along the feature axis. -/
theorem den_apply (x2 : IVec S100000 32) (g : Fin 1024) (k : Fin 64) :
    val_main_v57 (F := Ideal) x2 (ix2 g k) = max (Cert.Spec.pooledCnt x2 g) 1 := by
  have e : idx_main_v56 (idx_main_v57 (ix2 g k)) = ix1 g := funext fun a => Fin.ext (by match a with | ⟨0, _⟩ => rfl)
  rw [val_main_v57_apply, val_main_v56_apply, e, val_main_v55_apply, cnt_apply, val_main_v54_apply, val_main_cst_13_apply]
  simp only [Ideal.maximumf_def, Ideal.ofBits_def, Ideal.ofBits_one_f32]

/-- The reference's last stage is the specification of the whole forward pass. -/
theorem val_eq (x0 : FVec Ideal S100000x128 .f32) (x1 : IVec S2x1000000 32) (x2 : IVec S100000 32)
    (x5 : FVec Ideal S128x64 .f32) (x6 : FVec Ideal S64 .f32) (x7 : FVec Ideal S64x10 .f32) (x8 : FVec Ideal S10 .f32) :
    val_main_v62 (F := Ideal) x0 x1 x2 x5 x6 x7 x8 = Cert.Spec.G x0 x1 x2 x5 x6 x7 x8 := by
  funext i
  obtain ⟨g, o, rfl⟩ : ∃ (g : Fin 1024) (o : Fin 10), i = ix2 g o := ⟨i 0, i 1, eq_ix2 i⟩
  have e8 : idx_main_v60 (idx_main_v61 (ix2 g o)) = ix1 o := funext fun a => Fin.ext (by match a with | ⟨0, _⟩ => rfl)
  rw [val_main_v62_apply, val_main_v59_apply, val_main_v61_apply, val_main_v60_apply, e8]
  show (∑ k : Fin 64, _) + x8 (ix1 o) = (∑ k : Fin 64, _) + x8 (ix1 o)
  refine congrArg (fun t => t + x8 (ix1 o)) (Finset.sum_congr rfl fun k _ => ?_)
  have el : lidx_main_v59 (ix2 g o) k = ix2 g k := funext fun a => Fin.ext (by match a with | ⟨0, _⟩ => rfl | ⟨1, _⟩ => rfl)
  have er : ridx_main_v59 (ix2 g o) k = ix2 k o := funext fun a => Fin.ext (by match a with | ⟨0, _⟩ => rfl | ⟨1, _⟩ => rfl)
  rw [el, er, val_main_v58_apply, sum_apply, den_apply]
  rfl

/-- The reference program's result term is the specification of its arguments. -/
theorem ref_eq (m : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v62 (F := Ideal) m c
      = Cert.Spec.G (m ((c.tc : Thread _ _).loc Cert.ReferenceIdeal.main_arg0)) (m ((c.tc : Thread _ _).loc Cert.ReferenceIdeal.main_arg1)) (m ((c.tc : Thread _ _).loc Cert.ReferenceIdeal.main_arg2)) (m ((c.tc : Thread _ _).loc Cert.ReferenceIdeal.main_arg5)) (m ((c.tc : Thread _ _).loc Cert.ReferenceIdeal.main_arg6)) (m ((c.tc : Thread _ _).loc Cert.ReferenceIdeal.main_arg7)) (m ((c.tc : Thread _ _).loc Cert.ReferenceIdeal.main_arg8)) := by
  rw [val_main_v62_eq]
  exact val_eq _ _ _ _ _ _ _

end Cert.RefValue

end
-- ==== Proof.lean ====
/-
  Graph convolution, mean pooling and a linear classifier: the Pallas program against its jnp reference,
  equal over the extended reals.

  The kernel program computes h = x · W block by block on the matrix unit (the bf16 casts are identities over the
  reals), lets the host gather, scale and scatter-add h along the edges exactly as the reference does, and then
  pools: per block of 1024 nodes it adds one-hot(graph id = batch word) · relu(agg + b) and the one-hot's row sums
  into two accumulators, and at the last block divides, multiplies by the classifier's weights and adds its bias.
  The reference pools with two scatter-adds by the batch vector. A node whose batch word is no graph id
  contributes to neither, and the 352 padding rows carry the word -1; so both are
  `out g j = (∑ k, (∑_{batch n = g} relu(agg n k + b k)) / max (#{n | batch n = g}) 1 · W' k j) + b' j`
  (Proof/Spec.lean). The sums are reordered freely and `0 · a = 0`, `1 · a = a` hold for every extended real:
  finiteness of the inputs is never used.

  Frames: each program runs to the end with its arguments unchanged (Proof/KernelRun.lean and its word-level twin;
  the reference's run read back). The idealization's one rewrite, a bf16 round trip of the one-hot, is the identity
  at the ideal instance.
-/
import proofs.«400008_j68461778698647_1_alg».proof.Defs
import proofs.«400008_j68461778698647_1_alg».proof.Proof.Gen.Kernel
import proofs.«400008_j68461778698647_1_alg».proof.Proof.Gen.KernelIdeal
import proofs.«400008_j68461778698647_1_alg».proof.Proof.Gen.ReferenceIdeal
import proofs.«400008_j68461778698647_1_alg».proof.Proof.Gen.Pre_finite_inputs
import proofs.«400008_j68461778698647_1_alg».proof.Proof.KernelRun
import proofs.«400008_j68461778698647_1_alg».proof.Proof.KernelRunBits
import proofs.«400008_j68461778698647_1_alg».proof.Proof.RefRun
import proofs.«400008_j68461778698647_1_alg».proof.Proof.PoolValue
import proofs.«400008_j68461778698647_1_alg».proof.Proof.RefValue

noncomputable section

namespace Cert.Proof

open Idealize.ShloMosaic Idealize.ShloMosaic.TcCoe Idealize.SL.Sem

theorem frame_kernel : Cert.frame_Kernel := fun m ρ _ => Cert.Kernel.Hand.frame m ρ

theorem frame_kernelIdeal : Cert.frame_KernelIdeal := fun m ρ _ => Cert.KernelIdeal.Hand.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The one rewrite of the idealization: widening back a value narrowed to bf16 is the identity over the reals. -/
theorem preserves : Cert.preserves_Kernel_KernelIdeal :=
  IdealRules.truncf_extf.statement Cert.KernelIdeal.S1024x1024 .f32 .bf16

/-- Both programs end with the specification of their (agreeing) arguments in the result array. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ?_) (Cert.KernelIdeal.Hand.run_all (F := Ideal) m ρ)
    have hv := h c
    exact ⟨(hv _ (Finset.mem_filter.mpr ⟨StableHlo.devRef_mem_tcRefs Cert.KernelIdeal.main_v46, by decide⟩)).trans ((Cert.KernelIdeal.Hand.V9_v46 m c).trans (Cert.KernelIdeal.Hand.poolArr_eq m c)),
      (hv _ (Finset.mem_filter.mpr ⟨StableHlo.devRef_mem_tcRefs Cert.KernelIdeal.main_arg0, by decide⟩)).trans (Cert.KernelIdeal.Gen.V9_main_arg0 m (Cert.KernelIdeal.Hand.outsB m) c),
      (hv _ (Finset.mem_filter.mpr ⟨StableHlo.devRef_mem_tcRefs Cert.KernelIdeal.main_arg1, by decide⟩)).trans (Cert.KernelIdeal.Gen.V9_main_arg1 m (Cert.KernelIdeal.Hand.outsB m) c),
      (hv _ (Finset.mem_filter.mpr ⟨StableHlo.devRef_mem_tcRefs Cert.KernelIdeal.main_arg2, by decide⟩)).trans (Cert.KernelIdeal.Gen.V9_main_arg2 m (Cert.KernelIdeal.Hand.outsB m) c),
      (hv _ (Finset.mem_filter.mpr ⟨StableHlo.devRef_mem_tcRefs Cert.KernelIdeal.main_arg3, by decide⟩)).trans (Cert.KernelIdeal.Gen.V9_main_arg3 m (Cert.KernelIdeal.Hand.outsB m) c),
      (hv _ (Finset.mem_filter.mpr ⟨StableHlo.devRef_mem_tcRefs Cert.KernelIdeal.main_arg4, by decide⟩)).trans (Cert.KernelIdeal.Gen.V9_main_arg4 m (Cert.KernelIdeal.Hand.outsB m) c),
      (hv _ (Finset.mem_filter.mpr ⟨StableHlo.devRef_mem_tcRefs Cert.KernelIdeal.main_arg5, by decide⟩)).trans (Cert.KernelIdeal.Gen.V9_main_arg5 m (Cert.KernelIdeal.Hand.outsB m) c),
      (hv _ (Finset.mem_filter.mpr ⟨StableHlo.devRef_mem_tcRefs Cert.KernelIdeal.main_arg6, by decide⟩)).trans (Cert.KernelIdeal.Gen.V9_main_arg6 m (Cert.KernelIdeal.Hand.outsB m) c),
      (hv _ (Finset.mem_filter.mpr ⟨StableHlo.devRef_mem_tcRefs Cert.KernelIdeal.main_arg7, by decide⟩)).trans (Cert.KernelIdeal.Gen.V9_main_arg7 m (Cert.KernelIdeal.Hand.outsB m) c),
      (hv _ (Finset.mem_filter.mpr ⟨StableHlo.devRef_mem_tcRefs Cert.KernelIdeal.main_arg8, by decide⟩)).trans (Cert.KernelIdeal.Gen.V9_main_arg8 m (Cert.KernelIdeal.Hand.outsB m) c)⟩
  · refine (θ_run Cert.ReferenceIdeal.defs _ _).mono (fun r h c => ⟨(h c).1.trans ?_, (h c).2⟩)
      (Cert.ReferenceIdeal.ValueP.run (F := Ideal) m' ρ')
    rw [Cert.RefValue.ref_eq m' c, (hagree c).1, (hagree c).2.1, (hagree c).2.2.1, (hagree c).2.2.2.2.2.1, (hagree c).2.2.2.2.2.2.1,
      (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
